-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1x512x512 : Shape := ⟨4, ![64, 1, 512, 512]⟩
abbrev S_ : Shape := ⟨0, ![]⟩

class Facts : Prop where
  bcast_S_S64x1x512x512 : S_.BroadcastsInDim S64x1x512x512 (![] : Fin 0 → Fin S64x1x512x512.rank)
  reducesTo_S64x1x512x512_S_d0_1_2_3 : S64x1x512x512.ReducesTo [0, 1, 2, 3] S_
  h_S_ : 0 < S_.numel

variable [Facts]

def fn {F : FTy → Type} [FloatOps F] (main_arg0 : FVec F S64x1x512x512 .f32) (main_arg1 : FVec F S64x1x512x512 .f32) : IVec S_ 1 :=
  let main_v0 : FVec F S64x1x512x512 .f32 := Host.absf main_arg0
  let main_cst : FVec F S_ .f32 := constant S_ .f32 0x7F800000#32
  let main_v1 : FVec F S64x1x512x512 .f32 := broadcastInDim S64x1x512x512 ![] bcast_S_S64x1x512x512 main_cst
  let main_v2 : IVec S64x1x512x512 1 := cmpf .olt main_v0 main_v1
  let main_c : IVec S_ 1 := constantI S_ 1 1#1
  let main_v3 : IVec S_ 1 := (fun x v => Host.reduce IntOp.andi x v reducesTo_S64x1x512x512_S_d0_1_2_3 h_S_) main_v2 main_c
  let main_v4 : FVec F S64x1x512x512 .f32 := Host.absf main_arg1
  let main_cst_0 : FVec F S_ .f32 := constant S_ .f32 0x7F800000#32
  let main_v5 : FVec F S64x1x512x512 .f32 := broadcastInDim S64x1x512x512 ![] bcast_S_S64x1x512x512 main_cst_0
  let main_v6 : IVec S64x1x512x512 1 := cmpf .olt main_v4 main_v5
  let main_c_1 : IVec S_ 1 := constantI S_ 1 1#1
  let main_v7 : IVec S_ 1 := (fun x v => Host.reduce IntOp.andi x v reducesTo_S64x1x512x512_S_d0_1_2_3 h_S_) main_v6 main_c_1
  let main_v8 : IVec S_ 1 := andi main_v3 main_v7
  main_v8
-- ==== Kernel.lean ====
abbrev S64x1x512x512 : Shape := ⟨4, ![64, 1, 512, 512]⟩
abbrev S64x262144 : Shape := ⟨2, ![64, 262144]⟩
abbrev S64x3 : Shape := ⟨2, ![64, 3]⟩
abbrev S32x32768 : Shape := ⟨2, ![32, 32768]⟩
abbrev S32x3 : Shape := ⟨2, ![32, 3]⟩
abbrev S32 : Shape := ⟨1, ![32]⟩
abbrev S32x1 : Shape := ⟨2, ![32, 1]⟩
abbrev S64x1 : Shape := ⟨2, ![64, 1]⟩
abbrev S64 : Shape := ⟨1, ![64]⟩
abbrev S_ : Shape := ⟨0, ![]⟩

abbrev nBuf : Space → Nat
  | .hbm => 26
  | .vmem => 6
  | .smem => 0
  | _ => 0

abbrev bufTy : (tb : Table) → Fin (tcTables nBuf tb) → BufTy
  | .hbm, ⟨0, _⟩ => ⟨S64x1x512x512, .f32⟩
  | .hbm, ⟨1, _⟩ => ⟨S64x1x512x512, .f32⟩
  | .hbm, ⟨2, _⟩ => ⟨S64x262144, .f32⟩
  | .hbm, ⟨3, _⟩ => ⟨S64x262144, .f32⟩
  | .hbm, ⟨4, _⟩ => ⟨S64x3, .f32⟩
  | .hbm, ⟨5, _⟩ => ⟨S64x1, .f32⟩
  | .hbm, ⟨6, _⟩ => ⟨S64, .f32⟩
  | .hbm, ⟨7, _⟩ => ⟨S64x1, .f32⟩
  | .hbm, ⟨8, _⟩ => ⟨S64, .f32⟩
  | .hbm, ⟨9, _⟩ => ⟨S64x1, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S64, .f32⟩
  | .hbm, ⟨15, _⟩ => ⟨S64, .f32⟩
  | .hbm, ⟨16, _⟩ => ⟨S64, .f32⟩
  | .hbm, ⟨17, _⟩ => ⟨S_, .f32⟩
  | .hbm, ⟨18, _⟩ => ⟨S64, .f32⟩
  | .hbm, ⟨19, _⟩ => ⟨S64, .f32⟩
  | .hbm, ⟨20, _⟩ => ⟨S64, .f32⟩
  | .hbm, ⟨21, _⟩ => ⟨S64, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .local _ .vmem, ⟨0, _⟩ => ⟨S32x32768, .f32⟩
  | .local _ .vmem, ⟨1, _⟩ => ⟨S32x32768, .f32⟩
  | .local _ .vmem, ⟨2, _⟩ => ⟨S32x32768, .f32⟩
  | .local _ .vmem, ⟨3, _⟩ => ⟨S32x32768, .f32⟩
  | .local _ .vmem, ⟨4, _⟩ => ⟨S32x3, .f32⟩
  | .local _ .vmem, ⟨5, _⟩ => ⟨S32x3, .f32⟩
  | _, _ => ⟨S64x1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_1 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S32x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x32768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S64x1x512x512_S64x262144 : S64x1x512x512.ShapeCasts S64x262144
  inb_S32x3_S32x3_0_0 : ∀ a, (![0, 0] : Fin 2 → Nat) a + S32x3.size a ≤ S32x3.size a
  h_S32x3 : 0 < S32x3.numel
  inb_S32x32768_S32x32768_0_0 : ∀ a, (![0, 0] : Fin 2 → Nat) a + S32x32768.size a ≤ S32x32768.size a
  h_S32x32768 : 0 < S32x32768.numel
  shapeCasts_S32x32768_S32x32768 : S32x32768.ShapeCasts S32x32768
  reduces_S32x32768_S32 : S32x32768.Reduces [1] S32
  shapeCasts_S32_S32x1 : S32.ShapeCasts S32x1
  concatenates_S32x1_S32x1_S32x1_S32x3_d1 : Shape.Concatenates [S32x1, S32x1, S32x1] S32x3 1
  shapeCasts_S32x3_S32x3 : S32x3.ShapeCasts S32x3
  slices_S64x3_S64x1_0_0 : S64x3.Slices ![0, 0] S64x1
  shapeCasts_S64x1_S64 : S64x1.ShapeCasts S64
  slices_S64x3_S64x1_0_1 : S64x3.Slices ![0, 1] S64x1
  slices_S64x3_S64x1_0_2 : S64x3.Slices ![0, 2] S64x1
  bcast_S_S64 : S_.BroadcastsInDim S64 (![] : Fin 0 → Fin S64.rank)
  reducesTo_S64_S_d0 : S64.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x32768.size a ≤ S64x262144.size a
  hwx0_0 : ∀ i : grid0.Coords, EltTy.bits .f32 = 32 ∨ (Rect.block (s := S64x262144) S32x32768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x32768.size a ≤ S64x262144.size a
  hwx0_1 : ∀ i : grid0.Coords, EltTy.bits .f32 = 32 ∨ (Rect.block (s := S64x262144) S32x32768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x3.size a ≤ S64x3.size a
  hwx0_2 : ∀ i : grid0.Coords, EltTy.bits .f32 = 32 ∨ (Rect.block (s := S64x3) S32x3.size (cc0_transform_2 i) (hinb0_2 i)).WholeWords (EltTy.packing .f32)

variable [Facts₀]

abbrev win0_0 : Pipeline.Window sig grid0 :=
  Pipeline.Window.ofSpec (Memref.whole main_v0) S32x32768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S32x32768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S32x3.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x1x512x512 : Shape := ⟨4, ![64, 1, 512, 512]⟩
abbrev S64x1x262144 : Shape := ⟨3, ![64, 1, 262144]⟩
abbrev S_ : Shape := ⟨0, ![]⟩
abbrev S64x2x262144 : Shape := ⟨3, ![64, 2, 262144]⟩
abbrev S64x2x2 : Shape := ⟨3, ![64, 2, 2]⟩
abbrev S64x1x1 : Shape := ⟨3, ![64, 1, 1]⟩
abbrev S64 : Shape := ⟨1, ![64]⟩
abbrev S64x1 : Shape := ⟨2, ![64, 1]⟩
abbrev S64x1x2 : Shape := ⟨3, ![64, 1, 2]⟩
abbrev S64x2 : Shape := ⟨2, ![64, 2]⟩

abbrev nBuf : Space → Nat
  | .hbm => 83
  | .vmem => 0
  | .smem => 0
  | _ => 0

abbrev bufTy : (tb : Table) → Fin (tcTables nBuf tb) → BufTy
  | .hbm, ⟨0, _⟩ => ⟨S64x1x512x512, .f32⟩
  | .hbm, ⟨1, _⟩ => ⟨S64x1x512x512, .f32⟩
  | .hbm, ⟨2, _⟩ => ⟨S64x1x262144, .f32⟩
  | .hbm, ⟨3, _⟩ => ⟨S_, .f32⟩
  | .hbm, ⟨4, _⟩ => ⟨S64x1x262144, .f32⟩
  | .hbm, ⟨5, _⟩ => ⟨S64x1x262144, .f32⟩
  | .hbm, ⟨6, _⟩ => ⟨S64x2x262144, .f32⟩
  | .hbm, ⟨7, _⟩ => ⟨S64x1x262144, .f32⟩
  | .hbm, ⟨8, _⟩ => ⟨S_, .f32⟩
  | .hbm, ⟨9, _⟩ => ⟨S64x1x262144, .f32⟩
  | .hbm, ⟨10, _⟩ => ⟨S64x1x262144, .f32⟩
  | .hbm, ⟨11, _⟩ => ⟨S64x2x262144, .f32⟩
  | .hbm, ⟨12, _⟩ => ⟨S64x2x2, .f32⟩
  | .hbm, ⟨13, _⟩ => ⟨S64x1x1, .f32⟩
  | .hbm, ⟨14, _⟩ => ⟨S64, .f32⟩
  | .hbm, ⟨15, _⟩ => ⟨S64, .f32⟩
  | .hbm, ⟨16, _⟩ => ⟨S64x1x1, .f32⟩
  | .hbm, ⟨17, _⟩ => ⟨S64, .f32⟩
  | .hbm, ⟨18, _⟩ => ⟨S64, .f32⟩
  | .hbm, ⟨19, _⟩ => ⟨S64, .i1⟩
  | .hbm, ⟨20, _⟩ => ⟨S64x1, .i1⟩
  | .hbm, ⟨21, _⟩ => ⟨S64x1x2, .f32⟩
  | .hbm, ⟨22, _⟩ => ⟨S64x2, .f32⟩
  | .hbm, ⟨23, _⟩ => ⟨S64x1x2, .f32⟩
  | .hbm, ⟨24, _⟩ => ⟨S64x2, .f32⟩
  | .hbm, ⟨25, _⟩ => ⟨S64x2, .i1⟩
  | .hbm, ⟨26, _⟩ => ⟨S64x2, .f32⟩
  | .hbm, ⟨27, _⟩ => ⟨S64x1, .i1⟩
  | .hbm, ⟨28, _⟩ => ⟨S64x1x2, .f32⟩
  | .hbm, ⟨29, _⟩ => ⟨S64x2, .f32⟩
  | .hbm, ⟨30, _⟩ => ⟨S64x1x2, .f32⟩
  | .hbm, ⟨31, _⟩ => ⟨S64x2, .f32⟩
  | .hbm, ⟨32, _⟩ => ⟨S64x2, .i1⟩
  | .hbm, ⟨33, _⟩ => ⟨S64x2, .f32⟩
  | .hbm, ⟨34, _⟩ => ⟨S64x1, .f32⟩
  | .hbm, ⟨35, _⟩ => ⟨S64, .f32⟩
  | .hbm, ⟨36, _⟩ => ⟨S_, .f32⟩
  | .hbm, ⟨37, _⟩ => ⟨S64, .f32⟩
  | .hbm, ⟨38, _⟩ => ⟨S64, .i1⟩
  | .hbm, ⟨39, _⟩ => ⟨S64x1, .f32⟩
  | .hbm, ⟨40, _⟩ => ⟨S64, .f32⟩
  | .hbm, ⟨41, _⟩ => ⟨S_, .i32⟩
  | .hbm, ⟨42, _⟩ => ⟨S_, .f32⟩
  | .hbm, ⟨43, _⟩ => ⟨S64, .f32⟩
  | .hbm, ⟨44, _⟩ => ⟨S64, .f32⟩
  | .hbm, ⟨45, _⟩ => ⟨S64x1, .f32⟩
  | .hbm, ⟨46, _⟩ => ⟨S64, .f32⟩
  | .hbm, ⟨47, _⟩ => ⟨S_, .f32⟩
  | .hbm, ⟨48, _⟩ => ⟨S64, .f32⟩
  | .hbm, ⟨49, _⟩ => ⟨S64, .i1⟩
  | .hbm, ⟨50, _⟩ => ⟨S64x1, .f32⟩
  | .hbm, ⟨51, _⟩ => ⟨S64, .f32⟩
  | .hbm, ⟨52, _⟩ => ⟨S64, .f32⟩
  | .hbm, ⟨53, _⟩ => ⟨S_, .i32⟩
  | .hbm, ⟨54, _⟩ => ⟨S_, .f32⟩
  | .hbm, ⟨55, _⟩ => ⟨S64, .f32⟩
  | .hbm, ⟨56, _⟩ => ⟨S64, .f32⟩
  | .hbm, ⟨57, _⟩ => ⟨S64x1, .f32⟩
  | .hbm, ⟨58, _⟩ => ⟨S64, .f32⟩
  | .hbm, ⟨59, _⟩ => ⟨S64x1, .f32⟩
  | .hbm, ⟨60, _⟩ => ⟨S64, .f32⟩
  | .hbm, ⟨61, _⟩ => ⟨S64, .f32⟩
  | .hbm, ⟨62, _⟩ => ⟨S64, .f32⟩
  | .hbm, ⟨63, _⟩ => ⟨S_, .i32⟩
  | .hbm, ⟨64, _⟩ => ⟨S_, .i32⟩
  | .hbm, ⟨65, _⟩ => ⟨S64, .i32⟩
  | .hbm, ⟨66, _⟩ => ⟨S64, .i32⟩
  | .hbm, ⟨67, _⟩ => ⟨S64, .i32⟩
  | .hbm, ⟨68, _⟩ => ⟨S64x1, .f32⟩
  | .hbm, ⟨69, _⟩ => ⟨S64, .f32⟩
  | .hbm, ⟨70, _⟩ => ⟨S64, .f32⟩
  | .hbm, ⟨71, _⟩ => ⟨S64, .f32⟩
  | .hbm, ⟨72, _⟩ => ⟨S64, .f32⟩
  | .hbm, ⟨73, _⟩ => ⟨S64, .f32⟩
  | .hbm, ⟨74, _⟩ => ⟨S_, .f32⟩
  | .hbm, ⟨75, _⟩ => ⟨S64, .f32⟩
  | .hbm, ⟨76, _⟩ => ⟨S64, .f32⟩
  | .hbm, ⟨77, _⟩ => ⟨S64, .f32⟩
  | .hbm, ⟨78, _⟩ => ⟨S64, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | _, _ => ⟨S64x1x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_call0_v0 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_v15 : Ref sig .tc := ⟨.hbm, 29, rfl⟩
abbrev main_call0_v16 : Ref sig .tc := ⟨.hbm, 30, rfl⟩
abbrev main_call0_v17 : Ref sig .tc := ⟨.hbm, 31, rfl⟩
abbrev main_call0_call1_v0 : Ref sig .tc := ⟨.hbm, 32, rfl⟩
abbrev main_call0_v18 : Ref sig .tc := ⟨.hbm, 33, rfl⟩
abbrev main_call0_v19 : Ref sig .tc := ⟨.hbm, 34, rfl⟩
abbrev main_call0_v20 : Ref sig .tc := ⟨.hbm, 35, rfl⟩
abbrev main_call0_cst : Ref sig .tc := ⟨.hbm, 36, rfl⟩
abbrev main_call0_v21 : Ref sig .tc := ⟨.hbm, 37, rfl⟩
abbrev main_call0_v22 : Ref sig .tc := ⟨.hbm, 38, rfl⟩
abbrev main_call0_v23 : Ref sig .tc := ⟨.hbm, 39, rfl⟩
abbrev main_call0_v24 : Ref sig .tc := ⟨.hbm, 40, rfl⟩
abbrev main_call0_c : Ref sig .tc := ⟨.hbm, 41, rfl⟩
abbrev main_call0_call2_v0 : Ref sig .tc := ⟨.hbm, 42, rfl⟩
abbrev main_call0_call2_v1 : Ref sig .tc := ⟨.hbm, 43, rfl⟩
abbrev main_call0_v25 : Ref sig .tc := ⟨.hbm, 44, rfl⟩
abbrev main_call0_v26 : Ref sig .tc := ⟨.hbm, 45, rfl⟩
abbrev main_call0_v27 : Ref sig .tc := ⟨.hbm, 46, rfl⟩
abbrev main_call0_cst_0 : Ref sig .tc := ⟨.hbm, 47, rfl⟩
abbrev main_call0_v28 : Ref sig .tc := ⟨.hbm, 48, rfl⟩
abbrev main_call0_v29 : Ref sig .tc := ⟨.hbm, 49, rfl⟩
abbrev main_call0_v30 : Ref sig .tc := ⟨.hbm, 50, rfl⟩
abbrev main_call0_v31 : Ref sig .tc := ⟨.hbm, 51, rfl⟩
abbrev main_call0_v32 : Ref sig .tc := ⟨.hbm, 52, rfl⟩
abbrev main_call0_c_1 : Ref sig .tc := ⟨.hbm, 53, rfl⟩
abbrev main_call0_call3_v0 : Ref sig .tc := ⟨.hbm, 54, rfl⟩
abbrev main_call0_call3_v1 : Ref sig .tc := ⟨.hbm, 55, rfl⟩
abbrev main_call0_v33 : Ref sig .tc := ⟨.hbm, 56, rfl⟩
abbrev main_call0_v34 : Ref sig .tc := ⟨.hbm, 57, rfl⟩
abbrev main_call0_v35 : Ref sig .tc := ⟨.hbm, 58, rfl⟩
abbrev main_call0_v36 : Ref sig .tc := ⟨.hbm, 59, rfl⟩
abbrev main_call0_v37 : Ref sig .tc := ⟨.hbm, 60, rfl⟩
abbrev main_call0_v38 : Ref sig .tc := ⟨.hbm, 61, rfl⟩
abbrev main_call0_v39 : Ref sig .tc := ⟨.hbm, 62, rfl⟩
abbrev main_call0_c_2 : Ref sig .tc := ⟨.hbm, 63, rfl⟩
abbrev main_call0_c_3 : Ref sig .tc := ⟨.hbm, 64, rfl⟩
abbrev main_call0_call4_v0 : Ref sig .tc := ⟨.hbm, 65, rfl⟩
abbrev main_call0_call4_v1 : Ref sig .tc := ⟨.hbm, 66, rfl⟩
abbrev main_call0_v40 : Ref sig .tc := ⟨.hbm, 67, rfl⟩
abbrev main_call0_v41 : Ref sig .tc := ⟨.hbm, 68, rfl⟩
abbrev main_call0_v42 : Ref sig .tc := ⟨.hbm, 69, rfl⟩
abbrev main_call0_v43 : Ref sig .tc := ⟨.hbm, 70, rfl⟩
abbrev main_call0_v44 : Ref sig .tc := ⟨.hbm, 71, rfl⟩
abbrev main_v9 : Ref sig .tc := ⟨.hbm, 72, rfl⟩
abbrev main_v10 : Ref sig .tc := ⟨.hbm, 73, rfl⟩
abbrev main_cst_1 : Ref sig .tc := ⟨.hbm, 74, rfl⟩
abbrev main_v11 : Ref sig .tc := ⟨.hbm, 75, rfl⟩
abbrev main_v12 : Ref sig .tc := ⟨.hbm, 76, rfl⟩
abbrev main_v13 : Ref sig .tc := ⟨.hbm, 77, rfl⟩
abbrev main_v14 : Ref sig .tc := ⟨.hbm, 78, rfl⟩
abbrev main_cst_2 : Ref sig .tc := ⟨.hbm, 79, rfl⟩
abbrev main_v15 : Ref sig .tc := ⟨.hbm, 80, rfl⟩
abbrev main_cst_3 : Ref sig .tc := ⟨.hbm, 81, rfl⟩
abbrev main_v16 : Ref sig .tc := ⟨.hbm, 82, rfl⟩

abbrev nD : Nat := 1
abbrev τ : Topo := Topo.v7x

variable {F : FTy → Type} [FloatOps F]

class Facts₀ : Prop where
  shapeCasts_S64x1x512x512_S64x1x262144 : S64x1x512x512.ShapeCasts S64x1x262144
  bcast_S_S64x1x262144 : S_.BroadcastsInDim S64x1x262144 (![] : Fin 0 → Fin S64x1x262144.rank)
  concatenates_S64x1x262144_S64x1x262144_S64x2x262144_d1 : Shape.Concatenates [S64x1x262144, S64x1x262144] S64x2x262144 1
  slices_S64x2x2_S64x1x1_0_1_0 : S64x2x2.Slices ![0, 1, 0] S64x1x1
  shapeCasts_S64x1x1_S64 : S64x1x1.ShapeCasts S64
  slices_S64x2x2_S64x1x1_0_0_0 : S64x2x2.Slices ![0, 0, 0] S64x1x1
  bcast_S64_S64x1_0 : S64.BroadcastsInDim S64x1 (![0] : Fin 1 → Fin S64x1.rank)
  slices_S64x2x2_S64x1x2_0_1_0 : S64x2x2.Slices ![0, 1, 0] S64x1x2
  shapeCasts_S64x1x2_S64x2 : S64x1x2.ShapeCasts S64x2
  slices_S64x2x2_S64x1x2_0_0_0 : S64x2x2.Slices ![0, 0, 0] S64x1x2
  bcast_S64x1_S64x2_0_1 : S64x1.BroadcastsInDim S64x2 (![0, 1] : Fin 2 → Fin S64x2.rank)
  slices_S64x2_S64x1_0_0 : S64x2.Slices ![0, 0] S64x1
  shapeCasts_S64x1_S64 : S64x1.ShapeCasts S64
  bcast_S_S64 : S_.BroadcastsInDim S64 (![] : Fin 0 → Fin S64.rank)
  slices_S64x2_S64x1_0_1 : S64x2.Slices ![0, 1] S64x1
  reducesTo_S64_S_d0 : S64.ReducesTo [0] S_
  h_S_ : 0 < S_.numel
  dot_S64x2x262144_S64x2x262144_S64x2x2_2_2_1_1_0_0_wf : DotDims.WF S64x2x262144 S64x2x262144 S64x2x2 [2] [2] [1] [1] [0] [0]

variable [Facts₀]

def dot_S64x2x262144_S64x2x262144_S64x2x2_2_2_1_1_0_0 : DotDims S64x2x262144 S64x2x262144 S64x2x2 where
  lhsContracting := [2]
  rhsContracting := [2]
  lhsNonContracting := [1]
  rhsNonContracting := [1]
  lhsBatch := [0]
  rhsBatch := [0]
  wf := dot_S64x2x262144_S64x2x262144_S64x2x2_2_2_1_1_0_0_wf

class Facts : Prop extends Facts₀ where

variable [Facts]
-- ==== Proof.Spec.lean ====
/-
  The mathematics both programs compute, stated once over the two argument arrays and free of either program.

  Each image `b` of an input of shape [64, 1, 512, 512] is read as a row of 262144 pixels (row-major). For inputs
  `x` (predictions) and `y` (targets) write, per image, `sXY = Σ_p x_p · y_p`, `sX = Σ_p x_p`, `sY = Σ_p y_p`.

  * One program forms `N · sXY − sX · sY` with `N = 262144` (the number of pixels).
  * The other stacks the channels `(x, 1 − x)` and `(y, 1 − y)`, forms the 2×2 matrix of their inner products over
    the pixels and takes its determinant by one step of Gaussian elimination with partial pivoting.

  For real entries the two agree: expanding the four inner products, every cross term cancels and
  `det = N · sXY − sX · sY`. Both programs then apply one and the same map `d ↦ mean_b (−log (|d_b| + ε))`.
-/
import Idealize.ShloMosaic.PureOps
import Idealize.ShloMosaic.PureOps.Ideal
import Idealize.ShloMosaic.Lib.ValueIdx

noncomputable section

open scoped BigOperators

namespace Cert.Dmi

open Idealize.ShloMosaic Idealize.ShloMosaic.ValueIdx

/-- The shape of an input: 64 one-channel images of 512 × 512 pixels. -/
abbrev SIn : Shape := ⟨4, ![64, 1, 512, 512]⟩
/-- An input with each image flattened to a row of pixels. -/
abbrev SFlat : Shape := ⟨2, ![64, 262144]⟩
/-- One block of rows and pixels that a grid point sees. -/
abbrev SBlk : Shape := ⟨2, ![32, 32768]⟩
/-- Three partial sums per row of a block. -/
abbrev SAcc : Shape := ⟨2, ![32, 3]⟩
/-- Three sums per image. -/
abbrev SSums : Shape := ⟨2, ![64, 3]⟩
/-- One number per image. -/
abbrev SDet : Shape := ⟨1, ![64]⟩
/-- A single number. -/
abbrev SOne : Shape := ⟨0, ![]⟩

theorem flat_casts : SIn.ShapeCasts SFlat := by decide
theorem one_bcasts : SOne.BroadcastsInDim SDet (![] : Fin 0 → Fin SDet.rank) := by decide
theorem det_reduces : SDet.ReducesTo [0] SOne := by decide
theorem one_pos : 0 < SOne.numel := by decide

/-- Pixel `p` of image `b`: the input read through its row-major flattening. -/
def px (x : SIn.Idx → EReal) (b : Fin 64) (p : Fin 262144) : EReal :=
  shapeCast SFlat x flat_casts (ix2 b p)

/-- `Σ_p x_p · y_p` over the pixels of image `b`. -/
def sXY (x y : SIn.Idx → EReal) (b : Fin 64) : EReal := ∑ p : Fin 262144, px x b p * px y b p

/-- `Σ_p x_p` over the pixels of image `b`. -/
def sX (x : SIn.Idx → EReal) (b : Fin 64) : EReal := ∑ p : Fin 262144, px x b p

/-- The closed form `N · sXY − sX · sY`, the literal `N = 262144` kept as its float word. -/
def kdet (x y : SIn.Idx → EReal) (b : Fin 64) : EReal :=
  Ideal.ofBits .f32 0x48800000#32 * sXY x y b - sX x b * sX y b

/-- Channel `i` of the stacked pair `(x, 1 − x)` at pixel `p` of image `b`, the literal one kept as its float word. -/
def chan (x : SIn.Idx → EReal) (b : Fin 64) (i : Fin 2) (p : Fin 262144) : EReal :=
  if i = 0 then px x b p else Ideal.ofBits .f32 0x3F800000#32 - px x b p

/-- Entry `(i, j)` of the 2×2 matrix of image `b`: the inner product over the pixels of channel `i` of the
    predictions with channel `j` of the targets. -/
def mat (x y : SIn.Idx → EReal) (b : Fin 64) (i j : Fin 2) : EReal :=
  ∑ p : Fin 262144, chan x b i p * chan y b j p

/-- The absolute value on the extended reals. -/
def eabs (a : EReal) : EReal := max a (-a)

/-- The determinant of `[[a00, a01], [a10, a11]]` by elimination with partial pivoting: the row whose first entry is
    larger in absolute value becomes the pivot row `(P0, P1)` (a swap flips the sign), the other row `(Q0, Q1)` is
    reduced by the multiplier `l = Q0 / P0` (taken as `0`, and the division made by `1`, when the pivot is `0`), and
    the result is `± P0 · (Q1 − l · P1)`. -/
def pivdet (a00 a01 a10 a11 : EReal) : EReal :=
  let P0 : EReal := if eabs a00 < eabs a10 then a10 else a00
  let P1 : EReal := if eabs a00 < eabs a10 then a11 else a01
  let Q0 : EReal := if eabs a00 < eabs a10 then a00 else a10
  let Q1 : EReal := if eabs a00 < eabs a10 then a01 else a11
  let piv : EReal := if P0 = 0 then ((1 : ℝ) : EReal) else P0
  let l : EReal := if P0 = 0 then ((0 : ℝ) : EReal) else Ideal.div Q0 piv
  let sgn : EReal := if eabs a00 < eabs a10 then ((-1 : ℝ) : EReal) else ((1 : ℝ) : EReal)
  (sgn * P0) * (Q1 - l * P1)

/-- The pivoted determinant of image `b`'s matrix. -/
def rdet (x y : SIn.Idx → EReal) (b : Fin 64) : EReal :=
  pivdet (mat x y b 0 0) (mat x y b 0 1) (mat x y b 1 0) (mat x y b 1 1)

/-- What both programs do with the 64 determinants: `mean_b (−log (|d_b| + ε))`, written with the host operations
    and float words both programs print, so that neither side ever opens it. -/
def tail (d : FVec Ideal SDet .f32) : FVec Ideal SOne .f32 :=
  Host.divf (F := Ideal)
    (Host.reduceAdd (F := Ideal)
      (Host.negf (F := Ideal) (Host.log (F := Ideal)
        (addf (Host.absf (F := Ideal) d)
          (broadcastInDim SDet ![] one_bcasts (constant (F := Ideal) SOne .f32 0x3A83126F#32)))))
      (constant (F := Ideal) SOne .f32 0x00000000#32) det_reduces one_pos)
    (constant (F := Ideal) SOne .f32 0x42800000#32)

/-- The three sums a block contributes to row `r`: over the block's pixels, of the products, of the first block and of
    the second. -/
def rowSums (x0 x1 : SBlk.Idx → EReal) (r : Fin 32) (k : Fin 3) : EReal :=
  match k with
  | ⟨0, _⟩ => ∑ q : Fin 32768, x0 (ix2 r q) * x1 (ix2 r q)
  | ⟨1, _⟩ => ∑ q : Fin 32768, x0 (ix2 r q)
  | ⟨2, _⟩ => ∑ q : Fin 32768, x1 (ix2 r q)

/-- The image that row `r` of the blocks in block-row `bi` belongs to. -/
def img (bi : Fin 2) (r : Fin 32) : Fin 64 := ⟨32 * bi.val + r.val, by have := bi.isLt; have := r.isLt; omega⟩

/-- The pixel that lane `q` of the blocks in block-column `hi` holds. -/
def pix (hi : Fin 8) (q : Fin 32768) : Fin 262144 := ⟨32768 * hi.val + q.val, by have := hi.isLt; have := q.isLt; omega⟩

/-- The block of an input at block-row `bi` and block-column `hi`: 32 images by 32768 pixels. -/
def blockOf (x : SIn.Idx → EReal) (bi : Fin 2) (hi : Fin 8) : SBlk.Idx → EReal :=
  fun j => px x (img bi (j 0)) (pix hi (j 1))

/-- The three sums of image `b`, in the order the accumulator holds them. -/
def sums3 (x y : SIn.Idx → EReal) (b : Fin 64) (k : Fin 3) : EReal :=
  match k with
  | ⟨0, _⟩ => sXY x y b
  | ⟨1, _⟩ => sX x b
  | ⟨2, _⟩ => sX y b

end Cert.Dmi

end
-- ==== Proof.KernelPieces.lean ====
/-
  What one run of the body leaves in the accumulator block, entry by entry.
  At a point that resets (the first block-column of a block-row) the block is zeroed and then the three row sums of
  the two input blocks are added: entry (r, k) ends at the k-th row sum of row r. At any other point the row sums
  are added to what the block held before.

  Each case's stores cover the block, so the block ends at the last covering store's payload, read at the inputs'
  blocks and — for the accumulator's own load — at what the block held (an accumulating point) or at the zero block the
  first store wrote (a resetting point). The payload at (r, k) is then opened operation by operation.
-/
import proofs.«128826_j17600775979806_1_alg».proof.Proof.Gen.KernelIdeal.Frame
import proofs.«128826_j17600775979806_1_alg».proof.Proof.Spec
import Idealize.ShloMosaic.Lib.Pipeline.Value
import Idealize.ShloMosaic.PureOps.Ideal.Laws
import Idealize.ShloMosaic.Lib.Tactic

noncomputable section

open scoped BigOperators

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

variable {F : FTy → Type} [FloatOps F]

/-- The zero offsets of a whole-block access. -/
private theorem hz : (![0, 0] : Fin 2 → Nat) = fun _ => 0 := funext fun a => by fin_cases a <;> rfl

/-- An accumulating point's one covering store writes the payload of the two input blocks and what the block held. -/
theorem out_B_eq_pay (c : Dev nD) (i : grid0.Coords) (arg2 : Memref sig .tc .vmem S32x32768 .f32) (harg2 : arg2.IsWhole)
    (arg3 : Memref sig .tc .vmem S32x32768 .f32) (harg3 : arg3.IsWhole) (arg4 : Memref sig .tc .vmem S32x3 .f32) (harg4 : arg4.IsWhole) (hc0 : ¬cond0_0 i)
    (x0 x1 : Vec F S32x32768 .f32) (xo2 : Vec F S32x3 .f32) :
    out0_B_2 c i arg2 harg2 arg3 harg3 arg4 harg4 hc0 x0 x1 xo2 = k0_pay2 x0 x1 xo2 := by
  unfold out0_B_2
  rw [View.read_writes_eq_canon _ _ _ (cover0_B_2 c i arg2 harg2 arg3 harg3 arg4 harg4 hc0 x0 x1 xo2)]
  unfold kernelRun0_B
  dsimp only
  sl_unfold_words
  rw [View.canon_unit_zero hz]
  simp only [View.readAt_eq_ld, harg2.read_unread, harg3.read_unread, harg4.read_unread,
    View.ld_unit_zero (S := S32x32768) hz, View.ld_unit_zero (S := S32x3) hz]

/-- A resetting point stores the zero block, reads it back, and its second covering store writes the payload of the
    two input blocks and the zero block. -/
theorem out_A_eq_pay (c : Dev nD) (i : grid0.Coords) (arg2 : Memref sig .tc .vmem S32x32768 .f32) (harg2 : arg2.IsWhole)
    (arg3 : Memref sig .tc .vmem S32x32768 .f32) (harg3 : arg3.IsWhole) (arg4 : Memref sig .tc .vmem S32x3 .f32) (harg4 : arg4.IsWhole) (hc0 : cond0_0 i)
    (x0 x1 : Vec F S32x32768 .f32) :
    out0_A_2 c i arg2 harg2 arg3 harg3 arg4 harg4 hc0 x0 x1 = k0_pay2 x0 x1 (k0_pay1 (F := F)) := by
  unfold out0_A_2
  rw [View.read_writes_eq_canon _ _ _ (cover0_A_2 c i arg2 harg2 arg3 harg3 arg4 harg4 hc0 x0 x1)]
  unfold kernelRun0_A
  dsimp only
  sl_unfold_words
  rw [View.canon_cons_unit_zero (S := S32x3) hz, View.readCov_unit_zero (S := S32x3) _ hz]
  simp only [View.readAt_eq_ld, harg2.read_unread, harg3.read_unread,
    View.ld_unit_zero (S := S32x32768) hz]

/-- The cast that keeps the reduced axis as a unit axis moves no entry: row `r` of the column is entry `r`. -/
private theorem keepdims_apply {α : Type} (v : S32.Idx → α) (h : S32.ShapeCasts S32x1) (r : Fin 32) :
    shapeCast S32x1 v h (ix2 r (0 : Fin 1)) = v (ix1 r) := by
  refine shapeCast_apply v h (ix2 r (0 : Fin 1)) (ix1 r) ?_
  rw [Shape.rowMajor_val_one, Shape.rowMajor_val_two]
  show r.val = r.val * 1 + 0
  omega

/-- Putting lane `q` back into row `r` of the reduced shape gives the block index `(r, q)`. -/
private theorem lift_lane (h : S32x32768.Reduces [1] S32) (r : Fin 32) (q : Fin 32768) :
    h.lift (ix1 r) q = ix2 r q := by
  funext a
  match a with
  | ⟨0, _⟩ => exact Fin.ext rfl
  | ⟨1, _⟩ => exact Fin.ext rfl

/-- A sum over the lanes with the zero word as start, at the ideal values, is the sum over the reduced axis's coordinates
    of the entry at the row's index with the coordinate put back. -/
private theorem laneSum_lift (w : FVec Ideal S32x32768 .f32) (h : S32x32768.Reduces [1] S32) (r : Fin 32) :
    multiReduction (F := Ideal) .add [1] S32 w 0x00000000#32 h (.inl rfl) rfl (ix1 r) = ∑ q : Fin (S32x32768.size 1), w (h.lift (ix1 r) q) :=
  Ideal.multiReduction_add_single w 0x00000000#32 h (.inl rfl) rfl (ix1 r)

/-- A sum over the lanes of a block with the zero word as start, at the ideal values: row `r` is the plain sum of that row's
    32768 entries. -/
private theorem laneSum_apply (w : FVec Ideal S32x32768 .f32) (h : S32x32768.Reduces [1] S32) (r : Fin 32) :
    multiReduction (F := Ideal) .add [1] S32 w 0x00000000#32 h (.inl rfl) rfl (ix1 r) = ∑ q : Fin 32768, w (ix2 r q) :=
  (laneSum_lift w h r).trans (Finset.sum_congr rfl fun q _ => congrArg w (lift_lane h r q))

/-- Three columns laid side by side, read at `(r, k)`: column `k` at row `r`. -/
private theorem concat3_apply {α : Type} (a b c : S32x1.Idx → α)
    (h : Shape.Concatenates [S32x1, S32x1, S32x1] S32x3 1) (r : Fin 32) (k : Fin 3) :
    concatenate S32x3 1 [⟨S32x1, a⟩, ⟨S32x1, b⟩, ⟨S32x1, c⟩] h (ix2 r k)
      = match k with
        | ⟨0, _⟩ => a (ix2 r (0 : Fin 1))
        | ⟨1, _⟩ => b (ix2 r (0 : Fin 1))
        | ⟨2, _⟩ => c (ix2 r (0 : Fin 1)) := by
  have hi : ∀ (k : Fin 3) (b : Fin S32x1.rank), b.cast (rfl : S32x1.rank = S32x3.rank) ≠ (1 : Fin S32x3.rank) →
      ((ix2 r (0 : Fin 1) : S32x1.Idx) b).val = ((ix2 r k : S32x3.Idx) (b.cast rfl)).val := by
    intro k b hb
    match b with
    | ⟨0, _⟩ => rfl
    | ⟨1, _⟩ => exact absurd rfl hb
  match k with
  | ⟨0, _⟩ =>
    exact concatenate_apply_piece (t := S32x3) 1 [⟨S32x1, a⟩, ⟨S32x1, b⟩, ⟨S32x1, c⟩] h _ 0 (by show (0 : ℕ) < 3; omega) S32x1 a rfl rfl 0 rfl
      (ix2 r (0 : Fin 1)) (hi _) rfl
  | ⟨1, _⟩ =>
    exact concatenate_apply_piece (t := S32x3) 1 [⟨S32x1, a⟩, ⟨S32x1, b⟩, ⟨S32x1, c⟩] h _ 1 (by show (1 : ℕ) < 3; omega) S32x1 b rfl rfl 1 rfl
      (ix2 r (0 : Fin 1)) (hi _) rfl
  | ⟨2, _⟩ =>
    exact concatenate_apply_piece (t := S32x3) 1 [⟨S32x1, a⟩, ⟨S32x1, b⟩, ⟨S32x1, c⟩] h _ 2 (by show (2 : ℕ) < 3; omega) S32x1 c rfl rfl 2 rfl
      (ix2 r (0 : Fin 1)) (hi _) rfl

/-- The second store's payload at `(r, k)`, at the ideal values: what the accumulator held there plus the `k`-th row
    sum — the casts to the same shape are the identity, the sum of two blocks is entrywise, column `k` of the three
    columns laid side by side is the `k`-th lane sum kept as a column, and a lane sum from the zero word is the plain sum
    of the row (of the entrywise products for `k = 0`). -/
theorem pay2_apply (x0 x1 : Vec Ideal S32x32768 .f32) (acc : Vec Ideal S32x3 .f32) (r : Fin 32) (k : Fin 3) :
    k0_pay2 (F := Ideal) x0 x1 acc (ix2 r k) = acc (ix2 r k) + Cert.Dmi.rowSums x0 x1 r k := by
  unfold k0_pay2
  simp only [shapeCast_self]
  refine (addf_apply _ _ _).trans ?_
  refine congrArg (fun z => acc (ix2 r k) + z) ?_
  refine (concat3_apply _ _ _ _ r k).trans ?_
  match k with
  | ⟨0, _⟩ =>
    refine (keepdims_apply _ _ r).trans ?_
    refine (laneSum_apply _ _ r).trans ?_
    simp only [shapeCast_self]
    exact Finset.sum_congr rfl fun q _ => rfl
  | ⟨1, _⟩ =>
    refine (keepdims_apply _ _ r).trans ?_
    refine (laneSum_apply _ _ r).trans ?_
    simp only [shapeCast_self]
    exact Finset.sum_congr rfl fun q _ => rfl
  | ⟨2, _⟩ =>
    refine (keepdims_apply _ _ r).trans ?_
    refine (laneSum_apply _ _ r).trans ?_
    simp only [shapeCast_self]
    exact Finset.sum_congr rfl fun q _ => rfl

/-- The zero block's entries are the real number zero: the word of `+0.0` denotes `0`. -/
theorem pay1_apply (j : S32x3.Idx) : k0_pay1 (F := Ideal) j = 0 :=
  Ideal.ofBits_zero_f32

/-- After a resetting point, entry `(r, k)` of the accumulator is the `k`-th row sum of row `r` of the two input blocks. -/
theorem out_A_apply (c : Dev nD) (i : grid0.Coords) (arg2 : Memref sig .tc .vmem S32x32768 .f32) (harg2 : arg2.IsWhole)
    (arg3 : Memref sig .tc .vmem S32x32768 .f32) (harg3 : arg3.IsWhole) (arg4 : Memref sig .tc .vmem S32x3 .f32) (harg4 : arg4.IsWhole) (hc0 : cond0_0 i)
    (x0 x1 : Vec Ideal S32x32768 .f32) (r : Fin 32) (k : Fin 3) :
    out0_A_2 (F := Ideal) c i arg2 harg2 arg3 harg3 arg4 harg4 hc0 x0 x1 (ix2 r k) = Cert.Dmi.rowSums x0 x1 r k := by
  refine (congrFun (out_A_eq_pay (F := Ideal) c i arg2 harg2 arg3 harg3 arg4 harg4 hc0 x0 x1) (ix2 r k)).trans ?_
  refine (pay2_apply x0 x1 (k0_pay1 (F := Ideal)) r k).trans ?_
  rw [pay1_apply, zero_add]

/-- After an accumulating point, entry `(r, k)` is what the block held plus the `k`-th row sum of row `r`. -/
theorem out_B_apply (c : Dev nD) (i : grid0.Coords) (arg2 : Memref sig .tc .vmem S32x32768 .f32) (harg2 : arg2.IsWhole)
    (arg3 : Memref sig .tc .vmem S32x32768 .f32) (harg3 : arg3.IsWhole) (arg4 : Memref sig .tc .vmem S32x3 .f32) (harg4 : arg4.IsWhole) (hc0 : ¬cond0_0 i)
    (x0 x1 : Vec Ideal S32x32768 .f32) (xo2 : Vec Ideal S32x3 .f32) (r : Fin 32) (k : Fin 3) :
    out0_B_2 (F := Ideal) c i arg2 harg2 arg3 harg3 arg4 harg4 hc0 x0 x1 xo2 (ix2 r k)
      = xo2 (ix2 r k) + Cert.Dmi.rowSums x0 x1 r k := by
  refine (congrFun (out_B_eq_pay (F := Ideal) c i arg2 harg2 arg3 harg3 arg4 harg4 hc0 x0 x1 xo2) (ix2 r k)).trans ?_
  exact pay2_apply x0 x1 xo2 r k

end Cert.KernelIdeal.Hand

end
-- ==== Proof.KernelBlocks.lean ====
/-
  Which part of the inputs a grid point sees. The 16 points run over 2 block-rows of 32 images and, inside each, over
  8 block-columns of 32768 pixels; the array a window is cut from is the input with each image flattened to a row.
  So the block of window 0 (window 1) at point (bi, hi) is the predictions (targets) at images 32·bi + r and
  pixels 32768·hi + q.
-/
import proofs.«128826_j17600775979806_1_alg».proof.Proof.Gen.KernelIdeal.Frame
import proofs.«128826_j17600775979806_1_alg».proof.Proof.Spec
import Idealize.ShloMosaic.Lib.Pipeline.Value
import Idealize.ShloMosaic.Lib.StableHlo.Run

noncomputable section

open scoped BigOperators

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ)

/-- Grid point `(bi, hi)` in the order the points are visited: block-rows outermost. -/
def pt (bi : Fin 2) (hi : Fin 8) : Fin cfg0.N :=
  ⟨8 * bi.val + hi.val, by rw [show cfg0.N = 16 from N_0]; have := bi.isLt; have := hi.isLt; omega⟩

theorem pt_val (bi : Fin 2) (hi : Fin 8) : (pt bi hi).val = 8 * bi.val + hi.val := rfl

/-- Every grid point is some `pt bi hi`. -/
theorem exists_pt (t : Fin cfg0.N) : ∃ bi hi, t = pt bi hi := by
  have h : t.val < 16 := lt_of_lt_of_eq t.isLt N_0
  exact ⟨⟨t.val / 8, by omega⟩, ⟨t.val % 8, by omega⟩,
    Fin.ext (by rw [pt_val]; show t.val = 8 * (t.val / 8) + t.val % 8; omega)⟩

/-- The predictions as launched, on core `c`. -/
abbrev argX (c : Dev nD) : Cert.Dmi.SIn.Idx → EReal := m ((c : Thread nD τ).loc main_arg0)
/-- The targets as launched, on core `c`. -/
abbrev argY (c : Dev nD) : Cert.Dmi.SIn.Idx → EReal := m ((c : Thread nD τ).loc main_arg1)

/-- The array window 0 is cut from: the predictions with each image flattened to a row of pixels. -/
theorem inputArr0_eq (c : Dev nD) : (V m c main_v0 : S64x262144.Idx → EReal)
    = shapeCast S64x262144 (m ((c : Thread nD τ).loc main_arg0)) shapeCasts_S64x1x512x512_S64x262144 := by
  show StableHlo.after hostOps0 (fun b => m (c, b)) (Proc.devRef .tc main_v0) = _
  after_results
  rfl

/-- The array window 1 is cut from: the targets with each image flattened to a row of pixels. -/
theorem inputArr1_eq (c : Dev nD) : (V m c main_v1 : S64x262144.Idx → EReal)
    = shapeCast S64x262144 (m ((c : Thread nD τ).loc main_arg1)) shapeCasts_S64x1x512x512_S64x262144 := by
  show StableHlo.after hostOps0 (fun b => m (c, b)) (Proc.devRef .tc main_v1) = _
  after_results
  rfl

/-- The block indices of the two input windows over the grid: block-row `t / 8`, block-column `t % 8`. -/
theorem inputBlockIdx : ∀ t : Fin cfg0.N,
    win0_0.index t (0 : Fin 2) = t.val / 8 ∧ win0_0.index t (1 : Fin 2) = t.val % 8
    ∧ win0_1.index t (0 : Fin 2) = t.val / 8 ∧ win0_1.index t (1 : Fin 2) = t.val % 8 :=
  (by decide +kernel : ∀ t : Fin grid0.N, _)

/-- Window 0's block at point `(bi, hi)` is that block of the predictions. -/
theorem iblk0_eq (c : Dev nD) (bi : Fin 2) (hi : Fin 8) :
    (iblk m c 0 (pt bi hi) : Vec Ideal S32x32768 .f32) = Cert.Dmi.blockOf (argX m c) bi hi := by
  obtain ⟨e0, e1, -, -⟩ := inputBlockIdx (pt bi hi)
  have hb := bi.isLt
  have hh := hi.isLt
  funext j
  unfold iblk
  rw [View.read_apply]
  show V m c main_v0 _ = _
  rw [inputArr0_eq]
  unfold Cert.Dmi.blockOf Cert.Dmi.px
  refine congrArg (shapeCast S64x262144 (m ((c : Thread nD τ).loc main_arg0)) shapeCasts_S64x1x512x512_S64x262144) ?_
  funext a
  apply Fin.ext
  match a with
  | ⟨0, _⟩ =>
    show win0_0.index (pt bi hi) (0 : Fin 2) * 32 + 1 * (j 0).val = 32 * bi.val + (j 0).val
    rw [e0, pt_val]; omega
  | ⟨1, _⟩ =>
    show win0_0.index (pt bi hi) (1 : Fin 2) * 32768 + 1 * (j 1).val = 32768 * hi.val + (j 1).val
    rw [e1, pt_val]; omega

/-- Window 1's block at point `(bi, hi)` is that block of the targets. -/
theorem iblk1_eq (c : Dev nD) (bi : Fin 2) (hi : Fin 8) :
    (iblk m c 1 (pt bi hi) : Vec Ideal S32x32768 .f32) = Cert.Dmi.blockOf (argY m c) bi hi := by
  obtain ⟨-, -, e0, e1⟩ := inputBlockIdx (pt bi hi)
  have hb := bi.isLt
  have hh := hi.isLt
  funext j
  unfold iblk
  rw [View.read_apply]
  show V m c main_v1 _ = _
  rw [inputArr1_eq]
  unfold Cert.Dmi.blockOf Cert.Dmi.px
  refine congrArg (shapeCast S64x262144 (m ((c : Thread nD τ).loc main_arg1)) shapeCasts_S64x1x512x512_S64x262144) ?_
  funext a
  apply Fin.ext
  match a with
  | ⟨0, _⟩ =>
    show win0_1.index (pt bi hi) (0 : Fin 2) * 32 + 1 * (j 0).val = 32 * bi.val + (j 0).val
    rw [e0, pt_val]; omega
  | ⟨1, _⟩ =>
    show win0_1.index (pt bi hi) (1 : Fin 2) * 32768 + 1 * (j 1).val = 32768 * hi.val + (j 1).val
    rw [e1, pt_val]; omega

end Cert.KernelIdeal.Hand

end
-- ==== Proof.Chunks.lean ====
/-
  A sum over the 262144 pixels of an image, cut into 8 consecutive stretches of 32768: pixel p is stretch p / 32768,
  place p % 32768. Addition on the extended reals is commutative and associative, so no finiteness is needed.
-/
import proofs.«128826_j17600775979806_1_alg».proof.Proof.Spec

noncomputable section

open scoped BigOperators

namespace Cert.Dmi

open Idealize.ShloMosaic Idealize.ShloMosaic.ValueIdx

/-- Pairs (stretch, place) and pixels correspond one to one, and `pix` is that correspondence:
    pixel `32768 * h + q` is place `q` of stretch `h`. -/
theorem pix_eq (h : Fin 8) (q : Fin 32768) :
    pix h q = (finProdFinEquiv : Fin 8 × Fin 32768 ≃ Fin (8 * 32768)) (h, q) := by
  apply Fin.ext
  simp only [pix, finProdFinEquiv_apply_val]
  omega

/-- A sum over all 262144 pixels is the sum over the 8 stretches of the sums over each stretch's 32768 places:
    the double sum is a sum over pairs, and the pairs are the pixels re-indexed. -/
theorem sum_pix (f : Fin 262144 → EReal) :
    ∑ h : Fin 8, ∑ q : Fin 32768, f (pix h q) = ∑ p : Fin 262144, f p := by
  rw [← Fintype.sum_prod_type']
  exact Fintype.sum_equiv (finProdFinEquiv : Fin 8 × Fin 32768 ≃ Fin (8 * 32768)) _ _
    (fun a => by rw [pix_eq])

/-- The three sums of an image are the sums over the 8 block-columns of the blocks' row sums. -/
theorem sums3_chunks (x y : SIn.Idx → EReal) (bi : Fin 2) (r : Fin 32) (k : Fin 3) :
    ∑ h : Fin 8, rowSums (blockOf x bi h) (blockOf y bi h) r k = sums3 x y (img bi r) k := by
  match k with
  | ⟨0, _⟩ =>
    exact sum_pix (fun p => px x (img bi r) p * px y (img bi r) p)
  | ⟨1, _⟩ =>
    exact sum_pix (fun p => px x (img bi r) p)
  | ⟨2, _⟩ =>
    exact sum_pix (fun p => px y (img bi r) p)

end Cert.Dmi

end
-- ==== Proof.KernelAccum.lean ====
/-
  The accumulator point by point. Inside block-row bi, after the point of block-column hi the accumulator's entry
  (r, k) is the sum over the block-columns h ≤ hi of the k-th row sum of row r of the blocks at (bi, h): the first
  column resets, every later one adds. After the last column this is the k-th sum of image 32·bi + r over all its pixels.
-/
import proofs.«128826_j17600775979806_1_alg».proof.Proof.KernelPieces
import proofs.«128826_j17600775979806_1_alg».proof.Proof.KernelBlocks
import proofs.«128826_j17600775979806_1_alg».proof.Proof.Chunks

noncomputable section

open scoped BigOperators

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ)

/-- The accumulator's contents depend on the point's number only: the bound that goes with it is a proposition. -/
private theorem outsAt0_num (c : Dev nD) {n n' : ℕ} (h : n = n') (hn : n < cfg0.N) (hn' : n' < cfg0.N) :
    outsAt0 (F := Ideal) m c n hn = outsAt0 (F := Ideal) m c n' hn' := by
  subst h; rfl

/-- The block-columns up to the first are the first alone. -/
private theorem Iic_first (h0 : 0 < 8) : Finset.Iic (⟨0, h0⟩ : Fin 8) = {⟨0, h0⟩} := by
  ext h
  simp only [Finset.mem_Iic, Finset.mem_singleton, Fin.le_def, Fin.ext_iff]
  omega

/-- The block-columns up to column `n + 1` are column `n + 1` and those up to column `n`. -/
private theorem Iic_next (n : ℕ) (hn : n + 1 < 8) :
    Finset.Iic (⟨n + 1, hn⟩ : Fin 8) = insert ⟨n + 1, hn⟩ (Finset.Iic (⟨n, Nat.lt_of_succ_lt hn⟩ : Fin 8)) := by
  ext h
  simp only [Finset.mem_Iic, Finset.mem_insert, Fin.le_def, Fin.ext_iff]
  omega

/-- Column `n + 1` is not among the columns up to `n`. -/
private theorem next_not_mem (n : ℕ) (hn : n + 1 < 8) :
    (⟨n + 1, hn⟩ : Fin 8) ∉ Finset.Iic (⟨n, Nat.lt_of_succ_lt hn⟩ : Fin 8) := by
  simp only [Finset.mem_Iic, Fin.le_def]
  omega

/-- The accumulator after the point of block-column `n` of block-row `bi`, by induction on the column: column 0 is a
    resetting point (its number is a multiple of 8) and leaves the row sums of its own blocks; column `n + 1` is an
    accumulating point whose predecessor is column `n` of the same block-row, and adds its blocks' row sums to what
    that one left. -/
private theorem outsAt_col (c : Dev nD) (bi : Fin 2) (r : Fin 32) (k : Fin 3) :
    ∀ (n : ℕ) (hn : n < 8),
      outsAt0 (F := Ideal) m c (pt bi ⟨n, hn⟩).val (pt bi ⟨n, hn⟩).isLt (ix2 r k)
        = ∑ h ∈ Finset.Iic (⟨n, hn⟩ : Fin 8),
            Cert.Dmi.rowSums (Cert.Dmi.blockOf (argX m c) bi h) (Cert.Dmi.blockOf (argY m c) bi h) r k
  | 0, hn => by
    have h0 : (pt bi ⟨0, hn⟩).val % 8 = 0 := by rw [pt_val]; dsimp only; omega
    rw [outsAt0_A m c (pt bi ⟨0, hn⟩) h0]
    refine (out_A_apply c (grid0.coords (pt bi ⟨0, hn⟩)) (ms0_0 (pt bi ⟨0, hn⟩)) (hs0_0 (pt bi ⟨0, hn⟩))
      (ms0_1 (pt bi ⟨0, hn⟩)) (hs0_1 (pt bi ⟨0, hn⟩)) (ms0_2 (pt bi ⟨0, hn⟩)) (hs0_2 (pt bi ⟨0, hn⟩))
      ((hcond0_0 (pt bi ⟨0, hn⟩)).mpr h0) (iblk m c 0 (pt bi ⟨0, hn⟩)) (iblk m c 1 (pt bi ⟨0, hn⟩)) r k).trans ?_
    rw [iblk0_eq m c bi ⟨0, hn⟩, iblk1_eq m c bi ⟨0, hn⟩, Iic_first hn, Finset.sum_singleton]
  | n + 1, hn => by
    have hB : ¬(pt bi ⟨n + 1, hn⟩).val % 8 = 0 := by rw [pt_val]; dsimp only; omega
    rw [outsAt0_B m c (pt bi ⟨n + 1, hn⟩) hB]
    refine (out_B_apply c (grid0.coords (pt bi ⟨n + 1, hn⟩)) (ms0_0 (pt bi ⟨n + 1, hn⟩)) (hs0_0 (pt bi ⟨n + 1, hn⟩))
      (ms0_1 (pt bi ⟨n + 1, hn⟩)) (hs0_1 (pt bi ⟨n + 1, hn⟩)) (ms0_2 (pt bi ⟨n + 1, hn⟩)) (hs0_2 (pt bi ⟨n + 1, hn⟩))
      (fun h => hB ((hcond0_0 (pt bi ⟨n + 1, hn⟩)).mp h)) (iblk m c 0 (pt bi ⟨n + 1, hn⟩)) (iblk m c 1 (pt bi ⟨n + 1, hn⟩))
      (outsAt0 m c ((pt bi ⟨n + 1, hn⟩).val - 1) (Nat.lt_of_le_of_lt (Nat.sub_le _ _) (pt bi ⟨n + 1, hn⟩).isLt)) r k).trans ?_
    have hprev : (pt bi ⟨n + 1, hn⟩).val - 1 = (pt bi ⟨n, Nat.lt_of_succ_lt hn⟩).val := by
      rw [pt_val, pt_val]; dsimp only; omega
    rw [outsAt0_num m c hprev _ (pt bi ⟨n, Nat.lt_of_succ_lt hn⟩).isLt,
      outsAt_col c bi r k n (Nat.lt_of_succ_lt hn),
      iblk0_eq m c bi ⟨n + 1, hn⟩, iblk1_eq m c bi ⟨n + 1, hn⟩,
      Iic_next n hn, Finset.sum_insert (next_not_mem n hn), add_comm]

/-- The accumulator after point `(bi, hi)`: the row sums of the block-columns up to `hi`, added up. -/
theorem outsAt_apply (c : Dev nD) (bi : Fin 2) (hi : Fin 8) (r : Fin 32) (k : Fin 3) :
    outsAt0 (F := Ideal) m c (pt bi hi).val (pt bi hi).isLt (ix2 r k)
      = ∑ h ∈ Finset.Iic hi, Cert.Dmi.rowSums (Cert.Dmi.blockOf (argX m c) bi h) (Cert.Dmi.blockOf (argY m c) bi h) r k :=
  outsAt_col m c bi r k hi.val hi.isLt

/-- Every block-column is at most the last. -/
private theorem Iic_last : Finset.Iic (7 : Fin 8) = Finset.univ := by decide

/-- After the last block-column of block-row `bi` the accumulator holds the three sums of each of its images. -/
theorem outsAt_last (c : Dev nD) (bi : Fin 2) (r : Fin 32) (k : Fin 3) :
    outsAt0 (F := Ideal) m c (pt bi 7).val (pt bi 7).isLt (ix2 r k)
      = Cert.Dmi.sums3 (argX m c) (argY m c) (Cert.Dmi.img bi r) k := by
  rw [outsAt_apply m c bi 7 r k, Iic_last]
  exact Cert.Dmi.sums3_chunks (argX m c) (argY m c) bi r k

end Cert.KernelIdeal.Hand

end
-- ==== Proof.KernelFlush.lean ====
/-
  From the accumulator to the array of sums. The accumulator block is written back once per block-row, after its last
  block-column, to rows 32·bi … 32·bi + 31 of the [64, 3] array; the two write-backs tile the array. So the array ends
  holding, at (b, k), the k-th sum of image b.
-/
import proofs.«128826_j17600775979806_1_alg».proof.Proof.KernelBlocks

noncomputable section

open scoped BigOperators

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ)

/-- The [64, 3] array of the three sums of every image. -/
abbrev sumsArr (c : Dev nD) : Buf (Elt Ideal) ((c : Thread nD τ).loc main_v2) :=
  fun j => Cert.Dmi.sums3 (argX m c) (argY m c) (j 0) (j 1)

/-- Where the write-back at point `t` lands in the [64, 3] array: block-row `t / 8`, block-column 0
    (checked at each of the 16 points). -/
theorem sumsFlush_idx : ∀ t : Fin cfg0.N, win0_2.index t (0 : Fin 2) = t.val / 8 ∧ win0_2.index t (1 : Fin 2) = 0 :=
  (by decide +kernel : ∀ t : Fin grid0.N, win0_2.index t (0 : Fin 2) = t.val / 8 ∧ win0_2.index t (1 : Fin 2) = 0)

/-- What a write-back writes is its block of the array of sums. A write-back happens after the last block-column
    (`t ≡ 7 mod 8`), so at `t = 8·bi + 7`; entry `(r, k)` of the accumulator is then the `k`-th sum of image
    `32·bi + r`, and entry `(r, k)` of block `(bi, 0)` sits at `(bi·32 + r, 0·3 + k)` of the array. -/
theorem sumsFlush_eq (c : Dev nD)
    (hlast : ∀ (bi : Fin 2) (r : Fin 32) (k : Fin 3),
      outsAt0 (F := Ideal) m c (pt bi 7).val (pt bi 7).isLt (ix2 r k)
        = Cert.Dmi.sums3 (argX m c) (argY m c) (Cert.Dmi.img bi r) k)
    (t : Fin cfg0.N) (hf : (cfg0.win 2).flush t = true) :
    (dats m 0 c).flushed 2 t = ((cfg0.win 2).blk t).view.read (Elt Ideal) (sumsArr m c) := by
  have h7 : t.val % 8 = 7 := (flush0_2 t).mp hf
  obtain ⟨bi, hi, rfl⟩ := exists_pt t
  -- `8·bi + hi ≡ 7 (mod 8)` with `hi < 8` forces `hi = 7`
  have hhi : hi = 7 := Fin.ext (by
    have h1 := pt_val bi hi; have h2 := hi.isLt; have h3 := bi.isLt
    show hi.val = 7
    omega)
  subst hhi
  show (cfg0.win 2).cut (grid0.coords (pt bi 7)) ((dats m 0 c).after 2 (pt bi 7)) = _
  rw [after0_2]
  funext j
  have hj0 : (j 0).val < 32 := (j 0).isLt
  have hj1 : (j 1).val < 3 := (j 1).isLt
  have h77 : ((7 : Fin 8) : ℕ) = 7 := rfl
  have hb := bi.isLt
  obtain ⟨e0, e1⟩ := sumsFlush_idx (pt bi 7)
  -- the whole block is written back: entry `j` of what is written is entry `(j 0, j 1)` of the accumulator
  have hL : (cfg0.win 2).cut (grid0.coords (pt bi 7)) (outsAt0 m c (pt bi 7).val (pt bi 7).isLt) j
      = outsAt0 m c (pt bi 7).val (pt bi 7).isLt (ix2 (⟨(j 0).val, hj0⟩ : Fin 32) (⟨(j 1).val, hj1⟩ : Fin 3)) := by
    show outsAt0 m c _ _ _ = _
    congr 1
    funext a
    match a with
    | ⟨0, _⟩ => rfl
    | ⟨1, _⟩ => rfl
  rw [hL, hlast]
  show _ = Cert.Dmi.sums3 (argX m c) (argY m c) ((((cfg0.win 2).blk (pt bi 7)).view.emb j) 0) ((((cfg0.win 2).blk (pt bi 7)).view.emb j) 1)
  congr 1
  · -- the row: `32·bi + r = ((8·bi + 7) / 8)·32 + r`
    apply Fin.ext
    show 32 * bi.val + (j 0).val = win0_2.index (pt bi 7) (0 : Fin 2) * 32 + 1 * (j 0).val
    rw [e0, pt_val]; omega
  · -- the column: `k = 0·3 + k`
    apply Fin.ext
    show (j 1).val = win0_2.index (pt bi 7) (1 : Fin 2) * 3 + 1 * (j 1).val
    rw [e1]; omega

/-- The two write-backs tile the array: row `b` lies in block-row `b / 32`, since
    `32·(b / 32) ≤ b < 32·(b / 32) + 32`, and its three columns are the block's three. -/
theorem sumsFlush_cover (i : S64x3.Idx) :
    ∃ t : Fin cfg0.N, (cfg0.win 2).flush t = true ∧ i ∈ ((cfg0.win 2).blk t).view.set := by
  have hi0 : (i 0).val < 64 := (i 0).isLt
  have hi1 : (i 1).val < 3 := (i 1).isLt
  have h77 : ((7 : Fin 8) : ℕ) = 7 := rfl
  have hq : (i 0).val / 32 < 2 := by omega
  obtain ⟨e0, e1⟩ := sumsFlush_idx (pt ⟨(i 0).val / 32, hq⟩ 7)
  have hp : (pt ⟨(i 0).val / 32, hq⟩ 7).val = 8 * ((i 0).val / 32) + 7 := by rw [pt_val, h77]
  refine ⟨pt ⟨(i 0).val / 32, hq⟩ 7, (flush0_2 _).mpr (by rw [hp]; omega), ?_⟩
  show i ∈ ((View.whole main_v2).slice (win0_2.rect (pt ⟨(i 0).val / 32, hq⟩ 7))).set
  rw [View.set_slice_whole, Rect.mem_set_unit]
  intro a
  match a with
  | ⟨0, _⟩ =>
    show win0_2.index (pt ⟨(i 0).val / 32, hq⟩ 7) (0 : Fin 2) * 32 ≤ (i 0).val
      ∧ (i 0).val < win0_2.index (pt ⟨(i 0).val / 32, hq⟩ 7) (0 : Fin 2) * 32 + 32
    rw [e0, hp]; omega
  | ⟨1, _⟩ =>
    show win0_2.index (pt ⟨(i 0).val / 32, hq⟩ 7) (1 : Fin 2) * 3 ≤ (i 1).val
      ∧ (i 1).val < win0_2.index (pt ⟨(i 0).val / 32, hq⟩ 7) (1 : Fin 2) * 3 + 3
    rw [e1]; omega

/-- Given what the accumulator holds after each block-row's last point, the array of sums after the region. -/
theorem sums_final (c : Dev nD)
    (hlast : ∀ (bi : Fin 2) (r : Fin 32) (k : Fin 3),
      outsAt0 (F := Ideal) m c (pt bi 7).val (pt bi 7).isLt (ix2 r k)
        = Cert.Dmi.sums3 (argX m c) (argY m c) (Cert.Dmi.img bi r) k) :
    (dats m 0 c).arrAt 2 cfg0.N = sumsArr m c := by
  -- every write-back writes its block of the array of sums, and the blocks written back cover the array
  exact (dats m 0 c).arrAt_eq_of_cover 2 (sumsArr m c) (sumsFlush_eq m c hlast) sumsFlush_cover

end Cert.KernelIdeal.Hand

end
-- ==== Proof.KernelRun.lean ====
/-
  From the array of sums to the program's result. After the region the host operations take columns 0, 1, 2 of the
  [64, 3] array — the sums a, s, t of every image —, form N · a − s · t with N = 262144, and apply the closing map
  d ↦ mean (−log (|d| + ε)).
-/
import proofs.«128826_j17600775979806_1_alg».proof.Proof.KernelFlush
import Idealize.ShloMosaic.Lib.StableHlo.Run
import Idealize.ShloMosaic.Lib.Pipeline.Value
import Idealize.ShloMosaic.Lib.Pipeline.FrameSuffix
import Idealize.ShloMosaic.Lib.ValueIdx

noncomputable section

open scoped BigOperators

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ)

/-- Column `k` of a [64, 3] array, taken as a [64, 1] slice and flattened to 64 entries: entry `b` is the array's
    entry `(b, k)`. The slice at `(b, 0)` is the array at `(b, 0 + k)`, and the flattening keeps the row-major
    position `b · 1 + 0 = b`. -/
theorem col_apply (s : FVec Ideal S64x3 .f32) (k : Nat) (hk : k < 3) (h : S64x3.Slices ![0, k] S64x1)
    (h' : S64x1.ShapeCasts S64) (b : Fin 64) :
    shapeCast S64 (extractStridedSlice S64x1 ![0, k] s h) h' (ix1 b) = s (ix2 b ⟨k, hk⟩) := by
  refine (shapeCast_apply _ h' (ix1 b) (ix2 b (0 : Fin 1)) ?_).trans ?_
  · rw [Shape.rowMajor_val_two, Shape.rowMajor_val_one]
    show b.val * 1 + 0 = b.val
    omega
  · refine extractStridedSlice_apply ![0, k] s h (ix2 b (0 : Fin 1)) (ix2 b ⟨k, hk⟩) fun a => ?_
    match a with
    | ⟨0, _⟩ => show b.val = 0 + b.val; omega
    | ⟨1, _⟩ => show k = k + 0; omega

/-- The closed-form determinants from the array of sums: `N · (column 0) − (column 1) · (column 2)`, the literal `N`
    broadcast to every image. -/
def detOf (s : FVec Ideal S64x3 .f32) : FVec Ideal S64 .f32 :=
  subf
    (mulf (broadcastInDim S64 ![] bcast_S_S64 (constant (F := Ideal) S_ .f32 0x48800000#32))
      (shapeCast S64 (extractStridedSlice S64x1 ![0, 0] s slices_S64x3_S64x1_0_0) shapeCasts_S64x1_S64))
    (mulf (shapeCast S64 (extractStridedSlice S64x1 ![0, 1] s slices_S64x3_S64x1_0_1) shapeCasts_S64x1_S64)
      (shapeCast S64 (extractStridedSlice S64x1 ![0, 2] s slices_S64x3_S64x1_0_2) shapeCasts_S64x1_S64))

/-- At the array of the three sums of every image, that is the closed form `N · sXY − sX · sY` image by image. -/
theorem detOf_sums (c : Dev nD) :
    detOf (sumsArr m c) = fun i => Cert.Dmi.kdet (argX m c) (argY m c) (i 0) := by
  funext i
  obtain ⟨b, rfl⟩ : ∃ b, i = ix1 b := ⟨i 0, eq_ix1 i⟩
  unfold detOf
  rw [subf_apply, mulf_apply, mulf_apply, col_apply _ 0 (by omega), col_apply _ 1 (by omega), col_apply _ 2 (by omega),
    broadcastInDim_apply ![] bcast_S_S64 _ (ix1 b) ix0 (fun a => a.elim0), constant_apply]
  rfl

/-- The result buffer after the host operations that follow the region, given the array of sums the region leaves. -/
theorem tail_value (c : Dev nD) (hs : (dats m 0 c).arrAt 2 cfg0.N = sumsArr m c) :
    Pipeline.afterTail₀ cfgs (dats m) 0 (V0 m) [hostOps1] c main_v19
      = Cert.Dmi.tail (fun i => Cert.Dmi.kdet (argX m c) (argY m c) (i 0)) := by
  unfold Pipeline.afterTail₀
  show StableHlo.after hostOps1 _ (Proc.devRef .tc main_v19) = _
  after_results
  have e : Pipeline.withArrays (cfgs 0).spec c (V0 m c) (fun w => (dats m 0 c).arrAt w (cfgs 0).N) (Proc.devRef .tc main_v2)
      = sumsArr m c := (Pipeline.withArrays_arr spec0 launch0.win.arr_inj c _ _ 2).trans hs
  rw [e]
  refine Eq.trans ?_ (congrArg Cert.Dmi.tail (detOf_sums m c))
  generalize sumsArr m c = s
  rfl

/-- Given the array of sums after the region, the whole program's run: it ends with the result at the closing map of the
    closed-form determinants, and the arguments unchanged. -/
theorem run_of_sums (ρ : Dev nD → PrngReg) (hsums : ∀ c : Dev nD, (dats m 0 c).arrAt 2 cfg0.N = sumsArr m c) :
    θ_run defs (onTc (τ := τ) (main (F := Ideal))) ⟨m, fun _ => 0, ρ⟩ fun r => ∀ c : Dev nD,
      r.2.mem ((c.tc : Thread nD τ).loc main_v19) = Cert.Dmi.tail (fun i => Cert.Dmi.kdet (argX m c) (argY m c) (i 0))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v19 (Pipeline.mem_restRefs_of main_v19 (by decide) (by decide))).trans (tail_value m c (hsums c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Hand

end
-- ==== Proof.KernelValue.lean ====
/-
  The kernel program's run: the accumulator's contents after each block-row give the array of sums, and the host
  operations after the region turn it into the closing map of the closed-form determinants.
-/
import proofs.«128826_j17600775979806_1_alg».proof.Proof.KernelAccum
import proofs.«128826_j17600775979806_1_alg».proof.Proof.KernelFlush
import proofs.«128826_j17600775979806_1_alg».proof.Proof.KernelRun

noncomputable section

open scoped BigOperators

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

/-- Every weakly fair execution terminates with the result at the closing map of `N · Σxy − Σx · Σy` per image, and the
    arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v19) = Cert.Dmi.tail (fun i => Cert.Dmi.kdet (argX m c) (argY m c) (i 0))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  run_of_sums m ρ fun c => sums_final m c (outsAt_last m c)

end Cert.KernelIdeal.Hand

end
-- ==== Proof.RefTerm.lean ====
/-
  The reference program's result as one pure term of its two arguments, cut in three:
  the 2×2 matrices of inner products (`matT`), the determinant routine applied to them (`detT`), and the
  closing map to the mean of `−log (|d| + ε)` (`tailT`). Each line is one host operation of the program, with
  values that the program computes twice from the same operands written once.
-/
import proofs.«128826_j17600775979806_1_alg».proof.ReferenceIdeal

noncomputable section

namespace Cert.ReferenceIdeal.Hand

open Idealize.ShloMosaic Cert.ReferenceIdeal

variable {F : FTy → Type} [FloatOps F] [Facts]
open Facts₀ Facts

/-- An input flattened per image and stacked with its complement: channels `(x, 1 − x)`. -/
def stackT (x : FVec F S64x1x512x512 .f32) : FVec F S64x2x262144 .f32 :=
  let v0 : FVec F S64x1x262144 .f32 := shapeCast S64x1x262144 x shapeCasts_S64x1x512x512_S64x1x262144
  let v1 : FVec F S64x1x262144 .f32 := broadcastInDim S64x1x262144 ![] bcast_S_S64x1x262144 (constant S_ .f32 0x3F800000#32)
  let v2 : FVec F S64x1x262144 .f32 := subf v1 v0
  concatenate S64x2x262144 1 [⟨S64x1x262144, v0⟩, ⟨S64x1x262144, v2⟩] concatenates_S64x1x262144_S64x1x262144_S64x2x262144_d1

/-- Per image, the 2×2 matrix of inner products over the pixels of the stacked predictions and stacked targets. -/
def matT (x y : FVec F S64x1x512x512 .f32) : FVec F S64x2x2 .f32 :=
  Host.dotGeneral dot_S64x2x262144_S64x2x262144_S64x2x2_2_2_1_1_0_0 none (stackT x) (stackT y)

/-- The determinant routine on 64 matrices of size 2×2: compare the first column's entries in absolute value, select
    the pivot row `P` and the other row `Q`, guard a zero pivot, eliminate, and multiply the diagonal with the
    sign of the row exchange. -/
def detT (A : FVec F S64x2x2 .f32) : FVec F S64 .f32 :=
  let a10 : FVec F S64 .f32 := shapeCast S64 (extractStridedSlice S64x1x1 ![0, 1, 0] A slices_S64x2x2_S64x1x1_0_1_0) shapeCasts_S64x1x1_S64
  let a00 : FVec F S64 .f32 := shapeCast S64 (extractStridedSlice S64x1x1 ![0, 0, 0] A slices_S64x2x2_S64x1x1_0_0_0) shapeCasts_S64x1x1_S64
  let swap : IVec S64 1 := cmpf .ogt (Host.absf a10) (Host.absf a00)
  let swap1 : IVec S64x1 1 := broadcastInDim S64x1 ![0] bcast_S64_S64x1_0 swap
  let row1 : FVec F S64x2 .f32 := shapeCast S64x2 (extractStridedSlice S64x1x2 ![0, 1, 0] A slices_S64x2x2_S64x1x2_0_1_0) shapeCasts_S64x1x2_S64x2
  let row0 : FVec F S64x2 .f32 := shapeCast S64x2 (extractStridedSlice S64x1x2 ![0, 0, 0] A slices_S64x2x2_S64x1x2_0_0_0) shapeCasts_S64x1x2_S64x2
  let swap2 : IVec S64x2 1 := broadcastInDim S64x2 ![0, 1] bcast_S64x1_S64x2_0_1 swap1
  let P : FVec F S64x2 .f32 := select swap2 row1 row0
  let Q : FVec F S64x2 .f32 := select swap2 row0 row1
  let P0 : FVec F S64 .f32 := shapeCast S64 (extractStridedSlice S64x1 ![0, 0] P slices_S64x2_S64x1_0_0) shapeCasts_S64x1_S64
  let zero : FVec F S64 .f32 := broadcastInDim S64 ![] bcast_S_S64 (constant S_ .f32 0x00000000#32)
  let isz : IVec S64 1 := cmpf .oeq P0 zero
  let one : FVec F S64 .f32 := broadcastInDim S64 ![] bcast_S_S64 (sitofp .f32 (constantI S_ 32 1#32))
  let piv : FVec F S64 .f32 := select isz one P0
  let Q0 : FVec F S64 .f32 := shapeCast S64 (extractStridedSlice S64x1 ![0, 0] Q slices_S64x2_S64x1_0_0) shapeCasts_S64x1_S64
  let quo : FVec F S64 .f32 := Host.divf Q0 piv
  let zeroI : FVec F S64 .f32 := broadcastInDim S64 ![] bcast_S_S64 (sitofp .f32 (constantI S_ 32 0#32))
  let l : FVec F S64 .f32 := select isz zeroI quo
  let Q1 : FVec F S64 .f32 := shapeCast S64 (extractStridedSlice S64x1 ![0, 1] Q slices_S64x2_S64x1_0_1) shapeCasts_S64x1_S64
  let P1 : FVec F S64 .f32 := shapeCast S64 (extractStridedSlice S64x1 ![0, 1] P slices_S64x2_S64x1_0_1) shapeCasts_S64x1_S64
  let u : FVec F S64 .f32 := subf Q1 (mulf l P1)
  let sgnI : IVec S64 32 := select swap (broadcastInDim S64 ![] bcast_S_S64 (constantI S_ 32 4294967295#32)) (broadcastInDim S64 ![] bcast_S_S64 (constantI S_ 32 1#32))
  let sgn : FVec F S64 .f32 := sitofp .f32 sgnI
  mulf (mulf sgn P0) u

/-- The closing map: `d ↦ (Σ_b −log (|d_b| + ε)) / 64`. -/
def tailT (d : FVec F S64 .f32) : FVec F S_ .f32 :=
  Host.divf
    (Host.reduceAdd (Host.negf (Host.log (addf (Host.absf d) (broadcastInDim S64 ![] bcast_S_S64 (constant S_ .f32 0x3A83126F#32)))))
      (constant S_ .f32 0x00000000#32) reducesTo_S64_S_d0 h_S_)
    (constant S_ .f32 0x42800000#32)

/-- The program's result as a function of its arguments. -/
def outT (x y : FVec F S64x1x512x512 .f32) : FVec F S_ .f32 := tailT (detT (matT x y))

end Cert.ReferenceIdeal.Hand

end
-- ==== Proof.RefRun.lean ====
/-
  The reference program's run. Its @main is a straight line of host operations once the determinant routine and the
  selects it calls are laid out at their call sites; every execution runs them in order, so the result buffer ends at
  the composed term of the arguments and the arguments are never written.
-/
import proofs.«128826_j17600775979806_1_alg».proof.Proof.RefTerm
import proofs.«128826_j17600775979806_1_alg».proof.Proof.Gen.ReferenceIdeal
import Idealize.ShloMosaic.Lib.StableHlo.Run
import Idealize.ShloMosaic.Lib.ValueIdx

noncomputable section

open scoped BigOperators

namespace Cert.ReferenceIdeal.Hand

open Idealize.ShloMosaic Idealize.ShloMosaic.TcCoe Idealize.ShloMosaic.ValueIdx Idealize.SL.Sem
open Cert.ReferenceIdeal Cert.ReferenceIdeal.Gen

open Idealize.ShloMosaic.StableHlo

variable {F : FTy → Type} [FloatOps F]

/-- @main's eighty-one operations in order. Eleven stack each argument, flattened per image, with its complement
    `1 − x` and form the inner products over the pixels; sixty are the determinant routine laid out at its call site over
    that call's buffers, each select it calls laid out in turn at its own (the two row selects, the guarded pivot, the
    guarded multiplier, the sign of the exchange); ten are the closing map to the mean of `−log (|d| + ε)`. -/
abbrev ops : List (HloOp τ sig (Elt F)) :=
  [ reshape main_arg0 main_v0 rfl shapeCasts_S64x1x512x512_S64x1x262144,
    nullary main_cst (constant S_ .f32 0x3F800000#32),
    unary main_cst main_v1 (broadcastInDim S64x1x262144 ![] bcast_S_S64x1x262144 : (⟨S_, .f32⟩ : BufTy).Contents (Elt F) → (⟨S64x1x262144, .f32⟩ : BufTy).Contents (Elt F)),
    binary main_v1 main_v0 main_v2 (subf : (⟨S64x1x262144, .f32⟩ : BufTy).Contents (Elt F) → (⟨S64x1x262144, .f32⟩ : BufTy).Contents (Elt F) → (⟨S64x1x262144, .f32⟩ : BufTy).Contents (Elt F)),
    binary main_v0 main_v2 main_v3 ((fun a b => concatenate S64x2x262144 1 [⟨S64x1x262144, a⟩, ⟨S64x1x262144, b⟩] concatenates_S64x1x262144_S64x1x262144_S64x2x262144_d1) : (⟨S64x1x262144, .f32⟩ : BufTy).Contents (Elt F) → (⟨S64x1x262144, .f32⟩ : BufTy).Contents (Elt F) → (⟨S64x2x262144, .f32⟩ : BufTy).Contents (Elt F)),
    reshape main_arg1 main_v4 rfl shapeCasts_S64x1x512x512_S64x1x262144,
    nullary main_cst_0 (constant S_ .f32 0x3F800000#32),
    unary main_cst_0 main_v5 (broadcastInDim S64x1x262144 ![] bcast_S_S64x1x262144 : (⟨S_, .f32⟩ : BufTy).Contents (Elt F) → (⟨S64x1x262144, .f32⟩ : BufTy).Contents (Elt F)),
    binary main_v5 main_v4 main_v6 (subf : (⟨S64x1x262144, .f32⟩ : BufTy).Contents (Elt F) → (⟨S64x1x262144, .f32⟩ : BufTy).Contents (Elt F) → (⟨S64x1x262144, .f32⟩ : BufTy).Contents (Elt F)),
    binary main_v4 main_v6 main_v7 ((fun a b => concatenate S64x2x262144 1 [⟨S64x1x262144, a⟩, ⟨S64x1x262144, b⟩] concatenates_S64x1x262144_S64x1x262144_S64x2x262144_d1) : (⟨S64x1x262144, .f32⟩ : BufTy).Contents (Elt F) → (⟨S64x1x262144, .f32⟩ : BufTy).Contents (Elt F) → (⟨S64x2x262144, .f32⟩ : BufTy).Contents (Elt F)),
    binary main_v3 main_v7 main_v8 ((fun l r => Host.dotGeneral dot_S64x2x262144_S64x2x262144_S64x2x2_2_2_1_1_0_0 none l r) : (⟨S64x2x262144, .f32⟩ : BufTy).Contents (Elt F) → (⟨S64x2x262144, .f32⟩ : BufTy).Contents (Elt F) → (⟨S64x2x2, .f32⟩ : BufTy).Contents (Elt F)),
    TRef.unary (.of main_v8 : TRef sig ⟨S64x2x2, .f32⟩) main_call0.v0 (extractStridedSlice S64x1x1 ![0, 1, 0] · slices_S64x2x2_S64x1x1_0_1_0),
    TRef.reshape main_call0.v0 main_call0.v1 rfl shapeCasts_S64x1x1_S64,
    TRef.unary main_call0.v1 main_call0.v2 Host.absf,
    TRef.unary (.of main_v8 : TRef sig ⟨S64x2x2, .f32⟩) main_call0.v3 (extractStridedSlice S64x1x1 ![0, 0, 0] · slices_S64x2x2_S64x1x1_0_0_0),
    TRef.reshape main_call0.v3 main_call0.v4 rfl shapeCasts_S64x1x1_S64,
    TRef.unary main_call0.v4 main_call0.v5 Host.absf,
    TRef.binary main_call0.v2 main_call0.v5 main_call0.v6 (cmpf .ogt),
    TRef.unary main_call0.v6 main_call0.v7 (broadcastInDim S64x1 ![0] bcast_S64_S64x1_0),
    TRef.unary (.of main_v8 : TRef sig ⟨S64x2x2, .f32⟩) main_call0.v8 (extractStridedSlice S64x1x2 ![0, 1, 0] · slices_S64x2x2_S64x1x2_0_1_0),
    TRef.reshape main_call0.v8 main_call0.v9 rfl shapeCasts_S64x1x2_S64x2,
    TRef.unary (.of main_v8 : TRef sig ⟨S64x2x2, .f32⟩) main_call0.v10 (extractStridedSlice S64x1x2 ![0, 0, 0] · slices_S64x2x2_S64x1x2_0_0_0),
    TRef.reshape main_call0.v10 main_call0.v11 rfl shapeCasts_S64x1x2_S64x2,
    TRef.unary main_call0.v7 main_call0.call0.v0 (broadcastInDim S64x2 ![0, 1] bcast_S64x1_S64x2_0_1),
    TRef.ternary main_call0.call0.v0 main_call0.v9 main_call0.v11 main_call0.call0.v1 select,
    TRef.unary main_call0.v6 main_call0.v13 (broadcastInDim S64x1 ![0] bcast_S64_S64x1_0),
    TRef.unary (.of main_v8 : TRef sig ⟨S64x2x2, .f32⟩) main_call0.v14 (extractStridedSlice S64x1x2 ![0, 0, 0] · slices_S64x2x2_S64x1x2_0_0_0),
    TRef.reshape main_call0.v14 main_call0.v15 rfl shapeCasts_S64x1x2_S64x2,
    TRef.unary (.of main_v8 : TRef sig ⟨S64x2x2, .f32⟩) main_call0.v16 (extractStridedSlice S64x1x2 ![0, 1, 0] · slices_S64x2x2_S64x1x2_0_1_0),
    TRef.reshape main_call0.v16 main_call0.v17 rfl shapeCasts_S64x1x2_S64x2,
    TRef.unary main_call0.v13 main_call0.call1.v0 (broadcastInDim S64x2 ![0, 1] bcast_S64x1_S64x2_0_1),
    TRef.ternary main_call0.call1.v0 main_call0.v15 main_call0.v17 main_call0.call1.v1 select,
    TRef.unary main_call0.call0.v1 main_call0.v19 (extractStridedSlice S64x1 ![0, 0] · slices_S64x2_S64x1_0_0),
    TRef.reshape main_call0.v19 main_call0.v20 rfl shapeCasts_S64x1_S64,
    TRef.nullary main_call0.cst (constant S_ .f32 0x00000000#32),
    TRef.unary main_call0.cst main_call0.v21 (broadcastInDim S64 ![] bcast_S_S64),
    TRef.binary main_call0.v20 main_call0.v21 main_call0.v22 (cmpf .oeq),
    TRef.unary main_call0.call0.v1 main_call0.v23 (extractStridedSlice S64x1 ![0, 0] · slices_S64x2_S64x1_0_0),
    TRef.reshape main_call0.v23 main_call0.v24 rfl shapeCasts_S64x1_S64,
    TRef.nullary main_call0.c (constantI S_ 32 1#32),
    TRef.unary main_call0.c main_call0.call2.v0 (sitofp .f32),
    TRef.unary main_call0.call2.v0 main_call0.call2.v1 (broadcastInDim S64 ![] bcast_S_S64),
    TRef.ternary main_call0.v22 main_call0.call2.v1 main_call0.v24 main_call0.call2.v2 select,
    TRef.unary main_call0.call0.v1 main_call0.v26 (extractStridedSlice S64x1 ![0, 0] · slices_S64x2_S64x1_0_0),
    TRef.reshape main_call0.v26 main_call0.v27 rfl shapeCasts_S64x1_S64,
    TRef.nullary main_call0.cst_0 (constant S_ .f32 0x00000000#32),
    TRef.unary main_call0.cst_0 main_call0.v28 (broadcastInDim S64 ![] bcast_S_S64),
    TRef.binary main_call0.v27 main_call0.v28 main_call0.v29 (cmpf .oeq),
    TRef.unary main_call0.call1.v1 main_call0.v30 (extractStridedSlice S64x1 ![0, 0] · slices_S64x2_S64x1_0_0),
    TRef.reshape main_call0.v30 main_call0.v31 rfl shapeCasts_S64x1_S64,
    TRef.binary main_call0.v31 main_call0.call2.v2 main_call0.v32 Host.divf,
    TRef.nullary main_call0.c_1 (constantI S_ 32 0#32),
    TRef.unary main_call0.c_1 main_call0.call3.v0 (sitofp .f32),
    TRef.unary main_call0.call3.v0 main_call0.call3.v1 (broadcastInDim S64 ![] bcast_S_S64),
    TRef.ternary main_call0.v29 main_call0.call3.v1 main_call0.v32 main_call0.call3.v2 select,
    TRef.unary main_call0.call1.v1 main_call0.v34 (extractStridedSlice S64x1 ![0, 1] · slices_S64x2_S64x1_0_1),
    TRef.reshape main_call0.v34 main_call0.v35 rfl shapeCasts_S64x1_S64,
    TRef.unary main_call0.call0.v1 main_call0.v36 (extractStridedSlice S64x1 ![0, 1] · slices_S64x2_S64x1_0_1),
    TRef.reshape main_call0.v36 main_call0.v37 rfl shapeCasts_S64x1_S64,
    TRef.binary main_call0.call3.v2 main_call0.v37 main_call0.v38 mulf,
    TRef.binary main_call0.v35 main_call0.v38 main_call0.v39 subf,
    TRef.nullary main_call0.c_2 (constantI S_ 32 4294967295#32),
    TRef.nullary main_call0.c_3 (constantI S_ 32 1#32),
    TRef.unary main_call0.c_2 main_call0.call4.v0 (broadcastInDim S64 ![] bcast_S_S64),
    TRef.unary main_call0.c_3 main_call0.call4.v1 (broadcastInDim S64 ![] bcast_S_S64),
    TRef.ternary main_call0.v6 main_call0.call4.v0 main_call0.call4.v1 main_call0.call4.v2 select,
    TRef.unary main_call0.call0.v1 main_call0.v41 (extractStridedSlice S64x1 ![0, 0] · slices_S64x2_S64x1_0_0),
    TRef.reshape main_call0.v41 main_call0.v42 rfl shapeCasts_S64x1_S64,
    TRef.unary main_call0.call4.v2 main_call0.v43 (sitofp .f32),
    TRef.binary main_call0.v43 main_call0.v42 main_call0.v44 mulf,
    TRef.binary main_call0.v44 main_call0.v39 main_call0.v45 mulf,
    unary main_v9 main_v10 (Host.absf : (⟨S64, .f32⟩ : BufTy).Contents (Elt F) → (⟨S64, .f32⟩ : BufTy).Contents (Elt F)),
    nullary main_cst_1 (constant S_ .f32 0x3A83126F#32),
    unary main_cst_1 main_v11 (broadcastInDim S64 ![] bcast_S_S64 : (⟨S_, .f32⟩ : BufTy).Contents (Elt F) → (⟨S64, .f32⟩ : BufTy).Contents (Elt F)),
    binary main_v10 main_v11 main_v12 (addf : (⟨S64, .f32⟩ : BufTy).Contents (Elt F) → (⟨S64, .f32⟩ : BufTy).Contents (Elt F) → (⟨S64, .f32⟩ : BufTy).Contents (Elt F)),
    unary main_v12 main_v13 (Host.log : (⟨S64, .f32⟩ : BufTy).Contents (Elt F) → (⟨S64, .f32⟩ : BufTy).Contents (Elt F)),
    unary main_v13 main_v14 (Host.negf : (⟨S64, .f32⟩ : BufTy).Contents (Elt F) → (⟨S64, .f32⟩ : BufTy).Contents (Elt F)),
    nullary main_cst_2 (constant S_ .f32 0x00000000#32),
    binary main_v14 main_cst_2 main_v15 ((fun x v => Host.reduceAdd x v reducesTo_S64_S_d0 h_S_) : (⟨S64, .f32⟩ : BufTy).Contents (Elt F) → (⟨S_, .f32⟩ : BufTy).Contents (Elt F) → (⟨S_, .f32⟩ : BufTy).Contents (Elt F)),
    nullary main_cst_3 (constant S_ .f32 0x42800000#32),
    binary main_v15 main_cst_3 main_v16 (Host.divf : (⟨S_, .f32⟩ : BufTy).Contents (Elt F) → (⟨S_, .f32⟩ : BufTy).Contents (Elt F) → (⟨S_, .f32⟩ : BufTy).Contents (Elt F)) ]

/-- @main is that straight line: with the determinant routine and its selects unfolded at their calls, both sides are
    one chain of the same steps in the same order, sequencing being associative. -/
theorem main_eq (c : Dev nD) : main (F := F) c = seq ops := rfl

/-- No buffer of the program is scoped. -/
theorem scopedRefs_eq : (Finset.univ.filter fun b : Ref sig .tc => b.isScoped) = ∅ := by decide
/-- The program has no semaphore. -/
theorem scopedSems_eq : (Finset.univ.filter fun sm : SemLoc sig => sm.isScoped .tc) = ∅ := by decide

/-- Every operation touches buffers of the TensorCore only. -/
theorem ops_sub : (ops : List (HloOp τ sig (Elt F))).Forall fun op => op.bufs ⊆ tcRefs τ sig :=
  ⟨reshape_bufs_sub .., nullary_bufs_sub .., unary_bufs_sub .., binary_bufs_sub .., binary_bufs_sub .., reshape_bufs_sub ..,
    nullary_bufs_sub .., unary_bufs_sub .., binary_bufs_sub .., binary_bufs_sub .., binary_bufs_sub .., unary_bufs_sub ..,
    reshape_bufs_sub .., unary_bufs_sub .., unary_bufs_sub .., reshape_bufs_sub .., unary_bufs_sub .., binary_bufs_sub ..,
    unary_bufs_sub .., unary_bufs_sub .., reshape_bufs_sub .., unary_bufs_sub .., reshape_bufs_sub .., unary_bufs_sub ..,
    ternary_bufs_sub .., unary_bufs_sub .., unary_bufs_sub .., reshape_bufs_sub .., unary_bufs_sub .., reshape_bufs_sub ..,
    unary_bufs_sub .., ternary_bufs_sub .., unary_bufs_sub .., reshape_bufs_sub .., nullary_bufs_sub .., unary_bufs_sub ..,
    binary_bufs_sub .., unary_bufs_sub .., reshape_bufs_sub .., nullary_bufs_sub .., unary_bufs_sub .., unary_bufs_sub ..,
    ternary_bufs_sub .., unary_bufs_sub .., reshape_bufs_sub .., nullary_bufs_sub .., unary_bufs_sub .., binary_bufs_sub ..,
    unary_bufs_sub .., reshape_bufs_sub .., binary_bufs_sub .., nullary_bufs_sub .., unary_bufs_sub .., unary_bufs_sub ..,
    ternary_bufs_sub .., unary_bufs_sub .., reshape_bufs_sub .., unary_bufs_sub .., reshape_bufs_sub .., binary_bufs_sub ..,
    binary_bufs_sub .., nullary_bufs_sub .., nullary_bufs_sub .., unary_bufs_sub .., unary_bufs_sub .., ternary_bufs_sub ..,
    unary_bufs_sub .., reshape_bufs_sub .., unary_bufs_sub .., binary_bufs_sub .., binary_bufs_sub .., unary_bufs_sub ..,
    nullary_bufs_sub .., unary_bufs_sub .., binary_bufs_sub .., unary_bufs_sub .., unary_bufs_sub .., nullary_bufs_sub ..,
    binary_bufs_sub .., nullary_bufs_sub .., binary_bufs_sub ..⟩

attribute [local irreducible] Host.reduceAdd concatenate in
set_option maxRecDepth 8192 in
set_option maxHeartbeats 1600000 in
/-- From any contents `V`, the line leaves the result buffer at `outT` of the two arguments' contents. Each operation
    leaves at its result buffer its function of its operands' contents and every other buffer as it was, so the
    contents of the last buffer unfold, operation by operation, to one term over `V` at the arguments. A value the
    program computes several times into buffers of their own (the pivot entry, the two rows, the broadcast comparison)
    unfolds each time to the same term, which `outT` names once; a reshape between equal element types and the transport
    of a value to a buffer of its own type are the identity. The sum over the images and the stacking of the channels
    stay closed: the equation holds without looking inside them. -/
theorem out_eq (V : Valuation τ sig (Elt F)) :
    after ops V (main_v16 : DevRef τ sig) = outT (V (main_arg0 : DevRef τ sig)) (V (main_arg1 : DevRef τ sig)) := by
  simp only [after_cons, after_nil]
  rfl

/-- No operation writes the first argument. -/
theorem arg0_eq (V : Valuation τ sig (Elt F)) :
    after ops V (main_arg0 : DevRef τ sig) = V (main_arg0 : DevRef τ sig) := by
  after_results_simp

/-- No operation writes the second argument. -/
theorem arg1_eq (V : Valuation τ sig (Elt F)) :
    after ops V (main_arg1 : DevRef τ sig) = V (main_arg1 : DevRef τ sig) := by
  after_results_simp

/-- Every weakly fair execution terminates with the result at `outT` of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v16)
        = outT (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v16).trans (out_eq _), (h c main_arg0).trans (arg0_eq _),
      (h c main_arg1).trans (arg1_eq _)⟩)
    (run_seq scopedRefs_eq scopedSems_eq defs main (fun _ => ops) main_eq (fun _ => ops_sub) m ρ)

end Cert.ReferenceIdeal.Hand

end
-- ==== Proof.RefMat.lean ====
/-
  The matrix of inner products read entry by entry: entry (i, j) of image b is the sum over the pixels of channel i of
  the stacked predictions times channel j of the stacked targets, channel 0 the input itself and channel 1 its
  complement 1 − input.
-/
import proofs.«128826_j17600775979806_1_alg».proof.Proof.RefTerm
import proofs.«128826_j17600775979806_1_alg».proof.Proof.Gen.ReferenceIdeal
import proofs.«128826_j17600775979806_1_alg».proof.Proof.Spec
import Idealize.ShloMosaic.Lib.ValueIdx
import Idealize.ShloMosaic.Lib.Pipeline.Value
import Idealize.ShloMosaic.PureOps.Ideal.Laws

noncomputable section

open scoped BigOperators

namespace Cert.ReferenceIdeal.Hand

open Idealize.ShloMosaic Idealize.ShloMosaic.TcCoe Idealize.ShloMosaic.ValueIdx Idealize.SL.Sem
open Cert.ReferenceIdeal Cert.ReferenceIdeal.Gen

/-! ## The reshape and the stacked channels at an index -/

/-- The per-image flattening to one row of 262144 pixels agrees with the flattening to [64, 1, 262144]: both read the
    input at the index with the same row-major position. -/
theorem flat3_apply (x : FVec Ideal S64x1x512x512 .f32) (b : Fin 64) (p : Fin 262144) :
    shapeCast S64x1x262144 x shapeCasts_S64x1x512x512_S64x1x262144 (ix3 b (0 : Fin 1) p) = Cert.Dmi.px x b p := by
  have hq : p.val / 512 < 512 := by have := p.isLt; omega
  have hr : p.val % 512 < 512 := by omega
  have e3 := shapeCast_apply x shapeCasts_S64x1x512x512_S64x1x262144 (ix3 b (0 : Fin 1) p)
    (ix4 b (0 : Fin 1) (⟨p.val / 512, hq⟩ : Fin 512) (⟨p.val % 512, hr⟩ : Fin 512)) (by
      rw [Shape.rowMajor_val_four, Shape.rowMajor_val_three]
      show ((b.val * 1 + 0) * 512 + p.val / 512) * 512 + p.val % 512 = (b.val * 1 + 0) * 262144 + p.val
      omega)
  have e2 := shapeCast_apply (x : Cert.Dmi.SIn.Idx → EReal) Cert.Dmi.flat_casts (ix2 b p)
    (ix4 b (0 : Fin 1) (⟨p.val / 512, hq⟩ : Fin 512) (⟨p.val % 512, hr⟩ : Fin 512)) (by
      rw [Shape.rowMajor_val_four, Shape.rowMajor_val_two]
      show ((b.val * 1 + 0) * 512 + p.val / 512) * 512 + p.val % 512 = b.val * 262144 + p.val
      omega)
  exact e3.trans e2.symm

/-- Channel 0 of the stacked pair is the first piece of the concatenation along the channel axis: the flattened input. -/
theorem stackT_apply_zero (x : FVec Ideal S64x1x512x512 .f32) (b : Fin 64) (p : Fin 262144) :
    stackT (F := Ideal) x (ix3 b (0 : Fin 2) p) = Cert.Dmi.chan x b 0 p := by
  unfold stackT Cert.Dmi.chan
  rw [concatenate_pair_apply_left (s₁ := S64x1x262144) (s₂ := S64x1x262144) (1 : Fin S64x2x262144.rank) _ _ _ _ rfl
    (ix3 b (0 : Fin 1) p) (fun a => by match a with | ⟨0, _⟩ => rfl | ⟨1, _⟩ => rfl | ⟨2, _⟩ => rfl)]
  rw [if_pos rfl]
  exact flat3_apply x b p

/-- Channel 1 is the second piece: the broadcast one minus the flattened input. -/
theorem stackT_apply_one (x : FVec Ideal S64x1x512x512 .f32) (b : Fin 64) (p : Fin 262144) :
    stackT (F := Ideal) x (ix3 b (1 : Fin 2) p) = Cert.Dmi.chan x b 1 p := by
  unfold stackT Cert.Dmi.chan
  rw [concatenate_pair_apply_right (s₁ := S64x1x262144) (s₂ := S64x1x262144) (1 : Fin S64x2x262144.rank) _ _ _ _ rfl rfl
    (ix3 b (0 : Fin 1) p)
    (fun a => by match a with | ⟨0, _⟩ => intro _; rfl | ⟨1, _⟩ => intro h; exact absurd rfl h | ⟨2, _⟩ => intro _; rfl)
    rfl]
  rw [if_neg (by decide), subf_apply, flat3_apply]
  rfl

/-- The stacked pair at image `b`, channel `i`, pixel `p`. -/
theorem stackT_apply (x : FVec Ideal S64x1x512x512 .f32) (b : Fin 64) (i : Fin 2) (p : Fin 262144) :
    stackT (F := Ideal) x (ix3 b i p) = Cert.Dmi.chan x b i p := by
  match i with
  | ⟨0, _⟩ => exact stackT_apply_zero x b p
  | ⟨1, _⟩ => exact stackT_apply_one x b p

/-! ## The batched product's dimension numbers, axis by axis

Batch axis 0 on both sides, contracted axis 2 on both sides, free axis 1 on both sides: at result index
`(b, i, j)` and contraction position `k` the left operand is read at `(b, i, k)`, the right at `(b, j, k)`. -/

theorem dot_contr_rank : dot_S64x2x262144_S64x2x262144_S64x2x2_2_2_1_1_0_0.contr.rank = 1 := rfl

theorem dot_contr_size : dot_S64x2x262144_S64x2x262144_S64x2x2_2_2_1_1_0_0.contr.size ⟨0, by rw [dot_contr_rank]; exact Nat.one_pos⟩ = 262144 := rfl

theorem lhs_dot_0 (j : S64x2x2.Idx) (k : dot_S64x2x262144_S64x2x262144_S64x2x2_2_2_1_1_0_0.contr.Idx) :
    (dot_S64x2x262144_S64x2x262144_S64x2x2_2_2_1_1_0_0.lhsIdx j k 0).val = (j 0).val := by
  unfold DotDims.lhsIdx
  rw [dif_pos (show (0 : Fin S64x2x262144.rank) ∈ dot_S64x2x262144_S64x2x262144_S64x2x2_2_2_1_1_0_0.lhsBatch by decide)]
  rfl

theorem lhs_dot_1 (j : S64x2x2.Idx) (k : dot_S64x2x262144_S64x2x262144_S64x2x2_2_2_1_1_0_0.contr.Idx) :
    (dot_S64x2x262144_S64x2x262144_S64x2x2_2_2_1_1_0_0.lhsIdx j k 1).val = (j 1).val := by
  unfold DotDims.lhsIdx
  rw [dif_neg (show ¬ (1 : Fin S64x2x262144.rank) ∈ dot_S64x2x262144_S64x2x262144_S64x2x2_2_2_1_1_0_0.lhsBatch by decide),
    dif_pos (show (1 : Fin S64x2x262144.rank) ∈ dot_S64x2x262144_S64x2x262144_S64x2x2_2_2_1_1_0_0.lhsNonContracting by decide)]
  rfl

theorem lhs_dot_2 (j : S64x2x2.Idx) (k : dot_S64x2x262144_S64x2x262144_S64x2x2_2_2_1_1_0_0.contr.Idx) :
    (dot_S64x2x262144_S64x2x262144_S64x2x2_2_2_1_1_0_0.lhsIdx j k 2).val = (k ⟨0, by rw [dot_contr_rank]; exact Nat.one_pos⟩).val :=
  DotDims.lhsIdx_val_of_single _ (cl := 2) rfl j k

theorem rhs_dot_0 (j : S64x2x2.Idx) (k : dot_S64x2x262144_S64x2x262144_S64x2x2_2_2_1_1_0_0.contr.Idx) :
    (dot_S64x2x262144_S64x2x262144_S64x2x2_2_2_1_1_0_0.rhsIdx j k 0).val = (j 0).val := by
  unfold DotDims.rhsIdx
  rw [dif_pos (show (0 : Fin S64x2x262144.rank) ∈ dot_S64x2x262144_S64x2x262144_S64x2x2_2_2_1_1_0_0.rhsBatch by decide)]
  rfl

theorem rhs_dot_1 (j : S64x2x2.Idx) (k : dot_S64x2x262144_S64x2x262144_S64x2x2_2_2_1_1_0_0.contr.Idx) :
    (dot_S64x2x262144_S64x2x262144_S64x2x2_2_2_1_1_0_0.rhsIdx j k 1).val = (j 2).val := by
  unfold DotDims.rhsIdx
  rw [dif_neg (show ¬ (1 : Fin S64x2x262144.rank) ∈ dot_S64x2x262144_S64x2x262144_S64x2x2_2_2_1_1_0_0.rhsBatch by decide),
    dif_pos (show (1 : Fin S64x2x262144.rank) ∈ dot_S64x2x262144_S64x2x262144_S64x2x2_2_2_1_1_0_0.rhsNonContracting by decide)]
  rfl

theorem rhs_dot_2 (j : S64x2x2.Idx) (k : dot_S64x2x262144_S64x2x262144_S64x2x2_2_2_1_1_0_0.contr.Idx) :
    (dot_S64x2x262144_S64x2x262144_S64x2x2_2_2_1_1_0_0.rhsIdx j k 2).val = (k ⟨0, by rw [dot_contr_rank]; exact Nat.one_pos⟩).val :=
  DotDims.rhsIdx_val_of_single _ (cr := 2) rfl j k

/-- The batched product at the ideal values, read at `(b, i, j)`: the sum over the contracted coordinate `p` of the
    left operand at `(b, i, p)` times the right operand at `(b, j, p)`. -/
theorem dot_apply (l r : FVec Ideal S64x2x262144 .f32) (b : Fin 64) (i j : Fin 2) :
    Host.dotGeneral dot_S64x2x262144_S64x2x262144_S64x2x2_2_2_1_1_0_0 none l r (ix3 b i j) = ∑ p : Fin 262144, l (ix3 b i p) * r (ix3 b j p) := by
  show FloatOps.dotGeneral _ none _ l r (ix3 b i j) = _
  rw [Ideal.dotGeneral_apply,
    ← Equiv.sum_comp (contrEquiv1 dot_S64x2x262144_S64x2x262144_S64x2x2_2_2_1_1_0_0 262144 dot_contr_rank dot_contr_size).symm]
  refine Finset.sum_congr rfl fun p _ => ?_
  have hk := contrEquiv1_symm_val dot_S64x2x262144_S64x2x262144_S64x2x2_2_2_1_1_0_0 262144 dot_contr_rank dot_contr_size p
  have el : dot_S64x2x262144_S64x2x262144_S64x2x2_2_2_1_1_0_0.lhsIdx (ix3 b i j)
      ((contrEquiv1 dot_S64x2x262144_S64x2x262144_S64x2x2_2_2_1_1_0_0 262144 dot_contr_rank dot_contr_size).symm p) = ix3 b i p :=
    funext fun a => Fin.ext (by
      match a with
      | ⟨0, _⟩ => exact lhs_dot_0 _ _
      | ⟨1, _⟩ => exact lhs_dot_1 _ _
      | ⟨2, _⟩ => exact (lhs_dot_2 _ _).trans hk)
  have er : dot_S64x2x262144_S64x2x262144_S64x2x2_2_2_1_1_0_0.rhsIdx (ix3 b i j)
      ((contrEquiv1 dot_S64x2x262144_S64x2x262144_S64x2x2_2_2_1_1_0_0 262144 dot_contr_rank dot_contr_size).symm p) = ix3 b j p :=
    funext fun a => Fin.ext (by
      match a with
      | ⟨0, _⟩ => exact rhs_dot_0 _ _
      | ⟨1, _⟩ => exact rhs_dot_1 _ _
      | ⟨2, _⟩ => exact (rhs_dot_2 _ _).trans hk)
  rw [el, er]

/-- Entry `(b, i, j)` of the batched product is the inner product over the pixels of the two channels. -/
theorem matT_apply (x y : FVec Ideal S64x1x512x512 .f32) (b : Fin 64) (i j : Fin 2) :
    matT (F := Ideal) x y (ix3 b i j) = Cert.Dmi.mat x y b i j := by
  unfold matT Cert.Dmi.mat
  rw [dot_apply]
  refine Finset.sum_congr rfl fun p _ => ?_
  rw [stackT_apply, stackT_apply]

end Cert.ReferenceIdeal.Hand

end
-- ==== Proof.RefDet.lean ====
/-
  The determinant routine read at one matrix: its slices pick the four entries, its selects the pivot row and the other
  row, and what it returns for matrix b is the pivoted determinant of that matrix's four entries.
-/
import proofs.«128826_j17600775979806_1_alg».proof.Proof.RefTerm
import proofs.«128826_j17600775979806_1_alg».proof.Proof.Gen.ReferenceIdeal
import proofs.«128826_j17600775979806_1_alg».proof.Proof.Spec
import Idealize.ShloMosaic.Lib.Pipeline.Value
import Idealize.ShloMosaic.PureOps.Ideal.Laws

noncomputable section

open scoped BigOperators

namespace Cert.ReferenceIdeal.Hand

open Idealize.ShloMosaic Idealize.ShloMosaic.TcCoe Idealize.ShloMosaic.ValueIdx Idealize.SL.Sem
open Cert.ReferenceIdeal Cert.ReferenceIdeal.Gen

/-! ## A slice followed by a reshape, read at one matrix

Each slice keeps all 64 matrices, fixes the row `o` (and for the entry slices the column 0) and leaves unit axes that the
reshape drops. A reshape keeps the row-major position, and dropping an axis of extent one does not move it, so the
reshaped slice at `b` is the operand at `b` with the fixed coordinates put back. -/

section Reads
variable {α : Type}

/-- Row `o`, column 0 of every matrix, as a vector over the matrices: at `b` it is entry `(o, 0)` of matrix `b`.
    Position `(b·1 + 0)·1 + 0 = b`; the slice adds the offsets `(0, o, 0)`. -/
theorem det_slice11_apply (A : S64x2x2.Idx → α) (o : Nat) (ho : o < 2) (h : S64x2x2.Slices ![0, o, 0] S64x1x1)
    (h' : S64x1x1.ShapeCasts S64) (b : Fin 64) :
    shapeCast S64 (extractStridedSlice S64x1x1 ![0, o, 0] A h) h' (ix1 b) = A (ix3 b ⟨o, ho⟩ 0) := by
  refine (shapeCast_apply _ h' (ix1 b) (ix3 b 0 0) ?_).trans ?_
  · rw [Shape.rowMajor_val_three, Shape.rowMajor_val_one]
    show ((b.val * 1 + 0) * 1 + 0) = b.val
    omega
  · refine extractStridedSlice_apply _ A h (ix3 b 0 0) (ix3 b ⟨o, ho⟩ 0) fun a => ?_
    match a with
    | ⟨0, _⟩ => show b.val = 0 + b.val; omega
    | ⟨1, _⟩ => show o = o + 0; omega
    | ⟨2, _⟩ => show 0 = 0 + 0; omega

/-- Row `o` of every matrix, as a 64 × 2 array: at `(b, c)` it is entry `(o, c)` of matrix `b`.
    Position `(b·1 + 0)·2 + c = b·2 + c`; the slice adds the offsets `(0, o, 0)`. -/
theorem det_slice12_apply (A : S64x2x2.Idx → α) (o : Nat) (ho : o < 2) (h : S64x2x2.Slices ![0, o, 0] S64x1x2)
    (h' : S64x1x2.ShapeCasts S64x2) (b : Fin 64) (c : Fin 2) :
    shapeCast S64x2 (extractStridedSlice S64x1x2 ![0, o, 0] A h) h' (ix2 b c) = A (ix3 b ⟨o, ho⟩ c) := by
  refine (shapeCast_apply _ h' (ix2 b c) (ix3 b 0 c) ?_).trans ?_
  · rw [Shape.rowMajor_val_three, Shape.rowMajor_val_two]
    show ((b.val * 1 + 0) * 2 + c.val) = b.val * 2 + c.val
    omega
  · refine extractStridedSlice_apply _ A h (ix3 b 0 c) (ix3 b ⟨o, ho⟩ c) fun a => ?_
    match a with
    | ⟨0, _⟩ => show b.val = 0 + b.val; omega
    | ⟨1, _⟩ => show o = o + 0; omega
    | ⟨2, _⟩ => show c.val = 0 + c.val; omega

/-- Column `o` of a 64 × 2 array, as a vector: at `b` it is the array at `(b, o)`.
    Position `b·1 + 0 = b`; the slice adds the offsets `(0, o)`. -/
theorem det_slice1_apply (v : S64x2.Idx → α) (o : Nat) (ho : o < 2) (h : S64x2.Slices ![0, o] S64x1)
    (h' : S64x1.ShapeCasts S64) (b : Fin 64) :
    shapeCast S64 (extractStridedSlice S64x1 ![0, o] v h) h' (ix1 b) = v (ix2 b ⟨o, ho⟩) := by
  refine (shapeCast_apply _ h' (ix1 b) (ix2 b 0) ?_).trans ?_
  · rw [Shape.rowMajor_val_two, Shape.rowMajor_val_one]
    show (b.val * 1 + 0) = b.val
    omega
  · refine extractStridedSlice_apply _ v h (ix2 b 0) (ix2 b ⟨o, ho⟩) fun a => ?_
    match a with
    | ⟨0, _⟩ => show b.val = 0 + b.val; omega
    | ⟨1, _⟩ => show o = o + 0; omega

/-- A vector over the matrices stretched to 64 × 1 and then to 64 × 2 reads, at `(b, c)`, the vector at `b`.
    The two axis maps are variables: the shape relation alone says where they send axis 0, since an operand axis of
    extent 64 can only go to a result axis of extent 64, and in both results that is axis 0. The unit axis of the
    middle array is read at 0 whatever it is sent to. -/
theorem det_bcast12_apply (w : S64.Idx → α) (d1 : Fin S64.rank → Fin S64x1.rank) (d2 : Fin S64x1.rank → Fin S64x2.rank)
    (h1 : S64.BroadcastsInDim S64x1 d1) (h2 : S64x1.BroadcastsInDim S64x2 d2) (b : Fin 64) (c : Fin 2) :
    broadcastInDim S64x2 d2 h2 (broadcastInDim S64x1 d1 h1 w) (ix2 b c) = w (ix1 b) := by
  have e2 : d2 0 = 0 := by
    have key : ∀ e : Fin S64x2.rank, S64x1.size 0 = S64x2.size e → e = 0 := by decide
    rcases h2.2 0 with h | h
    · exact absurd h (by decide)
    · exact key _ h
  have e1 : d1 0 = 0 := by
    have key : ∀ e : Fin S64x1.rank, S64.size 0 = S64x1.size e → e = 0 := by decide
    rcases h1.2 0 with h | h
    · exact absurd h (by decide)
    · exact key _ h
  refine (broadcastInDim_apply d2 h2 _ (ix2 b c) (ix2 b 0) fun a => ?_).trans ?_
  · match a with
    | ⟨0, hp⟩ => rw [show d2 ⟨0, hp⟩ = 0 from e2]; rfl
    | ⟨1, _⟩ => rfl
  · refine broadcastInDim_apply d1 h1 w (ix2 b 0) (ix1 b) fun a => ?_
    match a with
    | ⟨0, hp⟩ => rw [show d1 ⟨0, hp⟩ = 0 from e1]; rfl

/-- A scalar stretched over the 64 matrices reads the scalar everywhere: the operand has no axis to place. -/
theorem det_bcast0_apply (x : S_.Idx → α) (d : Fin S_.rank → Fin S64.rank) (h : S_.BroadcastsInDim S64 d) (j : S64.Idx) :
    broadcastInDim S64 d h x j = x ix0 :=
  broadcastInDim_apply d h x j ix0 fun a => a.elim0

end Reads

/-! ## The host's elementwise operations at an index, on extended reals -/

section AtIndex
variable {s : Shape} {φ : FTy}

/-- The host's absolute value of an element is `max x (−x)`. -/
theorem det_hostAbsf_apply (a : FVec Ideal s φ) (i : s.Idx) : Host.absf a i = max (a i) (-(a i)) := rfl
/-- The host's quotient of two elements is the extended reals' division. -/
theorem det_hostDivf_apply (a c : FVec Ideal s φ) (i : s.Idx) : Host.divf a c i = Ideal.div (a i) (c i) := rfl
/-- A splat integer constant reads its word. -/
theorem det_constantI_apply {w : Nat} (v : BitVec w) (i : s.Idx) : constantI s w v i = v := rfl
/-- A comparison of two elements is the linear order's comparison, as a bit. -/
theorem det_cmpf_apply (p : CmpFPredicate) (a c : FVec Ideal s φ) (i : s.Idx) :
    cmpf p a c i = Ideal.cmp p (a i) (c i) := rfl
/-- A signed word converted to a float is its integer value, as a real. -/
theorem det_sitofp_apply {w : Nat} (x : IVec s w) (i : s.Idx) :
    (sitofp φ x : FVec Ideal s φ) i = (((x i).toInt : ℝ) : EReal) := rfl

end AtIndex

/-! ## The routine on four numbers -/

section Scalar

/-- The bit of `x > y` is set when `y < x` … -/
theorem det_cmp_ogt_of_lt {x y : EReal} (h : y < x) : Ideal.cmp .ogt x y = 1#1 := by
  simp [Ideal.cmp, h]
/-- … and clear otherwise. -/
theorem det_cmp_ogt_of_not_lt {x y : EReal} (h : ¬ y < x) : Ideal.cmp .ogt x y = 0#1 := by
  simp [Ideal.cmp, h]
/-- The bit of `x = y` is set when they are equal … -/
theorem det_cmp_oeq_of_eq {x y : EReal} (h : x = y) : Ideal.cmp .oeq x y = 1#1 := by
  simp [Ideal.cmp, h]
/-- … and clear otherwise. -/
theorem det_cmp_oeq_of_ne {x y : EReal} (h : ¬ x = y) : Ideal.cmp .oeq x y = 0#1 := by
  simp [Ideal.cmp, h]

/-- The integer word 1, converted, is the real 1. -/
theorem det_word_one : (((1#32 : BitVec 32).toInt : ℝ) : EReal) = ((1 : ℝ) : EReal) := by
  rw [show (1#32 : BitVec 32).toInt = 1 by decide]; simp
/-- The integer word 0, converted, is the real 0. -/
theorem det_word_zero : (((0#32 : BitVec 32).toInt : ℝ) : EReal) = ((0 : ℝ) : EReal) := by
  rw [show (0#32 : BitVec 32).toInt = 0 by decide]; simp
/-- The integer word of all ones is −1 as a signed integer, so converted it is the real −1. -/
theorem det_word_negOne : (((4294967295#32 : BitVec 32).toInt : ℝ) : EReal) = ((-1 : ℝ) : EReal) := by
  rw [show (4294967295#32 : BitVec 32).toInt = -1 by decide]; simp

/-- The routine's arithmetic on the four entries of one matrix is the pivoted determinant. The exchange bit is
    `|a10| > |a00|`, which is the specification's `|a00| < |a10|`; a select on a set bit takes its first operand and
    on a clear bit its second, so the selected rows `P`, `Q` and the sign are the specification's `if`s; the zero
    float word is 0, so the pivot test is `P0 = 0`; and the converted integer words 1, 0, −1 are those reals. In each
    of the four cases (exchange or not, pivot zero or not) the two sides are then the same expression. -/
theorem det_pivdet_read (a00 a01 a10 a11 : EReal) :
    (let sw : BitVec 1 := Ideal.cmp .ogt (max a10 (-a10)) (max a00 (-a00))
     let P0 : EReal := Scalar.select sw a10 a00
     let P1 : EReal := Scalar.select sw a11 a01
     let Q0 : EReal := Scalar.select sw a00 a10
     let Q1 : EReal := Scalar.select sw a01 a11
     let isz : BitVec 1 := Ideal.cmp .oeq P0 (Ideal.ofBits .f32 0#32)
     let piv : EReal := Scalar.select isz (((1#32 : BitVec 32).toInt : ℝ) : EReal) P0
     let l : EReal := Scalar.select isz (((0#32 : BitVec 32).toInt : ℝ) : EReal) (Ideal.div Q0 piv)
     (((Scalar.select sw (4294967295#32 : BitVec 32) 1#32).toInt : ℝ) : EReal) * P0 * (Q1 - l * P1))
      = Cert.Dmi.pivdet a00 a01 a10 a11 := by
  unfold Cert.Dmi.pivdet Cert.Dmi.eabs
  simp only [Ideal.ofBits_zero_f32]
  by_cases hs : max a00 (-a00) < max a10 (-a10)
  · simp only [det_cmp_ogt_of_lt hs, select_one, if_pos hs, det_word_negOne]
    by_cases hz : a10 = 0
    · simp only [det_cmp_oeq_of_eq hz, select_one, if_pos hz, det_word_one, det_word_zero]
    · simp only [det_cmp_oeq_of_ne hz, select_zero, if_neg hz]
  · simp only [det_cmp_ogt_of_not_lt hs, select_zero, if_neg hs, det_word_one]
    by_cases hz : a00 = 0
    · simp only [det_cmp_oeq_of_eq hz, select_one, if_pos hz, det_word_one, det_word_zero]
    · simp only [det_cmp_oeq_of_ne hz, select_zero, if_neg hz]

end Scalar

/-! ## The routine at one matrix

Every operation of the routine is elementwise over the matrices or a re-indexing, so at `b` it is the same arithmetic on
the numbers the slices read there: `a10`, `a00` from the entry slices, the rows `(a10, a11)` and `(a00, a01)` from the row
slices, and the columns of the selected rows `P`, `Q` from the column slices, the exchange bit being the same at
both columns. -/

/-- The routine's value at matrix `b` is the pivoted determinant of its four entries. -/
theorem detT_apply (A : FVec Ideal S64x2x2 .f32) (b : Fin 64) :
    detT (F := Ideal) A (ix1 b)
      = Cert.Dmi.pivdet (A (ix3 b 0 0)) (A (ix3 b 0 1)) (A (ix3 b 1 0)) (A (ix3 b 1 1)) := by
  unfold detT
  simp only [mulf_apply, subf_apply, det_sitofp_apply, select_apply, det_cmpf_apply, det_hostAbsf_apply,
    det_hostDivf_apply, det_constantI_apply, constant_apply, det_bcast0_apply, det_bcast12_apply,
    det_slice1_apply _ 0 (by decide), det_slice1_apply _ 1 (by decide),
    det_slice11_apply _ 0 (by decide), det_slice11_apply _ 1 (by decide),
    det_slice12_apply _ 0 (by decide), det_slice12_apply _ 1 (by decide)]
  exact det_pivdet_read (A (ix3 b 0 0)) (A (ix3 b 0 1)) (A (ix3 b 1 0)) (A (ix3 b 1 1))

end Cert.ReferenceIdeal.Hand

end
-- ==== Proof.RefValue.lean ====
/-
  The reference's result as the closing map of the pivoted determinants of the matrices of inner products.
-/
import proofs.«128826_j17600775979806_1_alg».proof.Proof.RefMat
import proofs.«128826_j17600775979806_1_alg».proof.Proof.RefDet

noncomputable section

open scoped BigOperators

namespace Cert.ReferenceIdeal.Hand

open Idealize.ShloMosaic Idealize.ShloMosaic.TcCoe Idealize.ShloMosaic.ValueIdx Idealize.SL.Sem
open Cert.ReferenceIdeal Cert.ReferenceIdeal.Gen

/-- The program's closing map is the shared one: the same host operations on the same float words. -/
theorem tailT_eq (d : FVec Ideal S64 .f32) : tailT (F := Ideal) d = Cert.Dmi.tail d := rfl

/-- The reference's result: the closing map of, per image, the pivoted determinant of its matrix. -/
theorem outT_eq (x y : FVec Ideal S64x1x512x512 .f32) :
    outT (F := Ideal) x y = Cert.Dmi.tail (fun i => Cert.Dmi.rdet x y (i 0)) := by
  unfold outT
  rw [tailT_eq]
  refine congrArg Cert.Dmi.tail (funext fun i => ?_)
  obtain ⟨b, rfl⟩ : ∃ b : Fin 64, i = ix1 b := ⟨i 0, eq_ix1 i⟩
  rw [detT_apply]
  simp only [matT_apply]
  rfl

end Cert.ReferenceIdeal.Hand

end
-- ==== Proof.Algebra.lean ====
/-
  The identity between the two determinants, for real inputs.
  Write a = Σ x y, s = Σ x, t = Σ y over the N pixels of an image. The matrix of inner products of (x, 1 − x) with
  (y, 1 − y) is [[a, s − a], [t − a, N − s − t + a]], whose determinant a (N − s − t + a) − (s − a)(t − a) = N a − s t.
  Elimination with partial pivoting computes that determinant: with a nonzero pivot P0 it returns
  ± P0 (Q1 − (Q0 / P0) P1) = ± (P0 Q1 − Q0 P1), the sign undoing the row exchange; a zero pivot means the whole first
  column is zero, and both sides are 0.
-/
import proofs.«128826_j17600775979806_1_alg».proof.Proof.Spec
import Mathlib.Data.EReal.Inv
import Mathlib.Tactic.Ring
import Mathlib.Tactic.FieldSimp
import Mathlib.Tactic.Linarith
import Mathlib.Tactic.NormNum

noncomputable section

open scoped BigOperators

namespace Cert.Dmi

open Idealize.ShloMosaic Idealize.ShloMosaic.ValueIdx

namespace Alg

/-! ### The two float words -/

/-- The word `0x48800000` has exponent field 145 and significand 0: it denotes `2^23 · 2^(145 − 127 − 23) = 2^18 = 262144`. -/
theorem ofBits_pixels : Ideal.ofBits .f32 0x48800000#32 = ((262144 : ℝ) : EReal) := by
  simp [Ideal.ofBits, Ideal.ieee, -EReal.coe_mul]; norm_num

/-- The word `0x3F800000` has exponent field 127 and significand 0: it denotes `2^23 · 2^(127 − 127 − 23) = 1`. -/
theorem ofBits_unit : Ideal.ofBits .f32 0x3F800000#32 = ((1 : ℝ) : EReal) := by
  simp [Ideal.ofBits, Ideal.ieee, -EReal.coe_mul]; norm_num

/-! ### Real numbers inside the extended reals -/

/-- A finite sum of real numbers, read in the extended reals, is the sum of the readings (addition of two reals is
    the same in both, and the empty sum is 0 in both). -/
theorem coe_sum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- On a real number, `max a (−a)` is the absolute value: the embedding of the reals is monotone, so it commutes
    with `max`. -/
theorem eabs_coe (a : ℝ) : eabs (a : EReal) = ((|a| : ℝ) : EReal) := by
  unfold eabs
  rw [← EReal.coe_neg, abs_eq_max_neg]
  exact (EReal.coe_strictMono.monotone.map_max).symm

/-! ### The pivoted determinant of a real matrix -/

/-- Elimination with partial pivoting returns the determinant `a00 a11 − a01 a10` of a real 2×2 matrix. -/
theorem pivdet_coe (a00 a01 a10 a11 : ℝ) :
    pivdet (a00 : EReal) (a01 : EReal) (a10 : EReal) (a11 : EReal) = ((a00 * a11 - a01 * a10 : ℝ) : EReal) := by
  unfold pivdet
  dsimp only
  simp only [eabs_coe, EReal.coe_lt_coe_iff]
  by_cases hs : |a00| < |a10|
  · -- the rows are exchanged: the pivot a10 is nonzero since its absolute value exceeds another
    simp only [hs, if_true]
    have h10 : a10 ≠ 0 := by
      intro h; rw [h, abs_zero] at hs; exact absurd hs (not_lt.mpr (abs_nonneg _))
    have h10' : (a10 : EReal) ≠ 0 := by exact_mod_cast h10
    rw [if_neg h10', if_neg h10', Ideal.div, if_neg h10']
    simp only [← EReal.coe_inv, ← EReal.coe_mul, ← EReal.coe_sub]
    congr 1
    field_simp
    ring
  · simp only [hs, if_false]
    by_cases h00 : a00 = 0
    · -- a zero pivot that was not exchanged: the other entry of the column is no larger, hence zero as well
      have h10 : a10 = 0 := by
        have : |a10| ≤ 0 := by rw [h00, abs_zero] at hs; exact not_lt.mp hs
        exact abs_nonpos_iff.mp this
      subst h00; subst h10
      simp only [EReal.coe_zero, if_true]
      simp
    · have h00' : (a00 : EReal) ≠ 0 := by exact_mod_cast h00
      rw [if_neg h00', if_neg h00', Ideal.div, if_neg h00']
      simp only [← EReal.coe_inv, ← EReal.coe_mul, ← EReal.coe_sub]
      congr 1
      field_simp

/-! ### The real identity -/

/-- Over `n` points, the matrix of inner products of `(u, 1 − u)` with `(v, 1 − v)` has determinant
    `n · Σ u v − Σ u · Σ v`: its entries are `a`, `s − a`, `t − a` and `n − s − t + a` (the sum of `n` ones is `n`), and
    in `a (n − s − t + a) − (s − a)(t − a)` every term but `n a − s t` cancels. -/
theorem real_det {n : ℕ} (u v : Fin n → ℝ) :
    (∑ p, u p * v p) * (∑ p, (1 - u p) * (1 - v p)) - (∑ p, u p * (1 - v p)) * (∑ p, (1 - u p) * v p)
      = (n : ℝ) * (∑ p, u p * v p) - (∑ p, u p) * (∑ p, v p) := by
  have h01 : ∑ p, u p * (1 - v p) = (∑ p, u p) - ∑ p, u p * v p := by
    simp only [mul_sub, mul_one, Finset.sum_sub_distrib]
  have h10 : ∑ p, (1 - u p) * v p = (∑ p, v p) - ∑ p, u p * v p := by
    simp only [sub_mul, one_mul, Finset.sum_sub_distrib]
  have h11 : ∑ p, (1 - u p) * (1 - v p) = (n : ℝ) - (∑ p, u p) - (∑ p, v p) + ∑ p, u p * v p := by
    have h : ∀ p, (1 - u p) * (1 - v p) = 1 - u p - v p + u p * v p := fun p => by ring
    simp only [h, Finset.sum_add_distrib, Finset.sum_sub_distrib, Finset.sum_const, Finset.card_univ,
      Fintype.card_fin, nsmul_eq_mul, mul_one]
  rw [h01, h10, h11]; ring

/-! ### Both sides on an image whose pixels are real -/

section Image

variable (x y : SIn.Idx → EReal) (b : Fin 64) (u v : Fin 262144 → ℝ)
  (hu : ∀ p, px x b p = ((u p : ℝ) : EReal)) (hv : ∀ p, px y b p = ((v p : ℝ) : EReal))

include hu in
/-- The sum of the pixels is the real sum. -/
theorem sX_coe : sX x b = ((∑ p, u p : ℝ) : EReal) := by
  unfold sX
  simp only [hu]
  exact coe_sum _ _

include hu hv in
/-- The sum of the products is the real sum of the products. -/
theorem sXY_coe : sXY x y b = ((∑ p, u p * v p : ℝ) : EReal) := by
  unfold sXY
  simp only [hu, hv, ← EReal.coe_mul]
  exact coe_sum _ _

include hu hv in
/-- The closed form is `N · Σ u v − Σ u · Σ v` computed in the reals. -/
theorem kdet_coe :
    kdet x y b = ((262144 * (∑ p, u p * v p) - (∑ p, u p) * (∑ p, v p) : ℝ) : EReal) := by
  unfold kdet
  rw [ofBits_pixels, sXY_coe x y b u v hu hv, sX_coe x b u hu, sX_coe y b v hv, ← EReal.coe_mul, ← EReal.coe_mul,
    ← EReal.coe_sub]

include hu in
/-- The first channel is the pixel itself. -/
theorem chan_zero (p : Fin 262144) : chan x b 0 p = ((u p : ℝ) : EReal) := by
  unfold chan
  rw [if_pos rfl, hu]

include hu in
/-- The second channel is one minus the pixel. -/
theorem chan_one (p : Fin 262144) : chan x b 1 p = ((1 - u p : ℝ) : EReal) := by
  unfold chan
  rw [if_neg (by decide), ofBits_unit, hu, ← EReal.coe_sub]

include hu hv in
/-- The four inner products are the real inner products of `(u, 1 − u)` with `(v, 1 − v)`. -/
theorem mat_coe :
    mat x y b 0 0 = ((∑ p, u p * v p : ℝ) : EReal) ∧
    mat x y b 0 1 = ((∑ p, u p * (1 - v p) : ℝ) : EReal) ∧
    mat x y b 1 0 = ((∑ p, (1 - u p) * v p : ℝ) : EReal) ∧
    mat x y b 1 1 = ((∑ p, (1 - u p) * (1 - v p) : ℝ) : EReal) := by
  refine ⟨?_, ?_, ?_, ?_⟩ <;> unfold mat <;>
    simp only [chan_zero x b u hu, chan_zero y b v hv, chan_one x b u hu, chan_one y b v hv, ← EReal.coe_mul] <;>
    exact coe_sum _ _

include hu hv in
/-- The pivoted determinant of the image's matrix is the real determinant of the four real inner products. -/
theorem rdet_coe :
    rdet x y b = (((∑ p, u p * v p) * (∑ p, (1 - u p) * (1 - v p))
      - (∑ p, u p * (1 - v p)) * (∑ p, (1 - u p) * v p) : ℝ) : EReal) := by
  obtain ⟨h00, h01, h10, h11⟩ := mat_coe x y b u v hu hv
  unfold rdet
  rw [h00, h01, h10, h11, pivdet_coe]

end Image

end Alg

/-- For inputs all of whose entries are real numbers, the closed form and the pivoted determinant agree on every image. -/
theorem det_eq (x y : SIn.Idx → EReal) (hx : ∀ i, ∃ r : ℝ, x i = (r : EReal)) (hy : ∀ i, ∃ r : ℝ, y i = (r : EReal))
    (b : Fin 64) : kdet x y b = rdet x y b := by
  -- every pixel of the image is an entry of the input, hence real
  have hpx : ∀ p, ∃ r : ℝ, px x b p = (r : EReal) := fun p => hx _
  have hpy : ∀ p, ∃ r : ℝ, px y b p = (r : EReal) := fun p => hy _
  choose u hu using hpx
  choose v hv using hpy
  rw [Alg.kdet_coe x y b u v hu hv, Alg.rdet_coe x y b u v hu hv, Alg.real_det u v]
  norm_num

end Cert.Dmi

end
-- ==== Proof.Finite.lean ====
/-
  What the precondition says: every entry of both inputs is smaller than +∞ in absolute value, hence a real number.
-/
import proofs.«128826_j17600775979806_1_alg».proof.Pre_finite_inputs
import proofs.«128826_j17600775979806_1_alg».proof.Proof.Gen.Pre_finite_inputs
import proofs.«128826_j17600775979806_1_alg».proof.Proof.Spec
import Idealize.ShloMosaic.Lib.ReduceAll

noncomputable section

open scoped BigOperators

namespace Cert.Dmi

open Idealize.ShloMosaic Idealize.ShloMosaic.ValueIdx

/-- An extended real whose absolute value `max a (-a)` lies strictly below the word `0x7F800000`, which is `⊤`,
    is a real number: for `a = ⊥` and for `a = ⊤` the absolute value is `⊤` itself, and `⊤ < ⊤` fails. -/
theorem real_of_abs_lt (a : EReal)
    (h : FloatOps.cmpf (F := Ideal) .olt (FloatOps.absf (F := Ideal) (φ := .f32) a)
      (Ideal.ofBits .f32 0x7F800000#32) = 1#1) :
    ∃ r : ℝ, a = (r : EReal) := by
  induction a using EReal.rec with
  | bot =>
    exfalso
    simp [FloatOps.cmpf, FloatOps.absf, Ideal.cmp, Ideal.ofBits, Ideal.ieee] at h
  | coe r => exact ⟨r, rfl⟩
  | top =>
    exfalso
    simp [FloatOps.cmpf, FloatOps.absf, Ideal.cmp, Ideal.ofBits, Ideal.ieee] at h

/-- Under the precondition every entry of both inputs is a real number. -/
theorem real_of_pre (x y : FVec Ideal SIn .f32)
    (h : Cert.Pre_finite_inputs.fn (F := Ideal) x y = fun _ => 1#1) :
    (∀ i, ∃ r : ℝ, x i = (r : EReal)) ∧ (∀ i, ∃ r : ℝ, y i = (r : EReal)) := by
  -- the result of the precondition has a single index
  haveI : Subsingleton Cert.Pre_finite_inputs.S_.Idx := ⟨fun a b => funext fun d => d.elim0⟩
  have h0 := congrFun h ValueIdx.ix0
  dsimp only [Cert.Pre_finite_inputs.fn] at h0
  -- the conjunction is 1, so each of the two reductions by `and` over all axes is 1
  obtain ⟨hx, hy⟩ := IntOp.andi_eq_one.1 h0
  constructor
  · intro i
    -- a reduction by `and` that is 1 met a 1 at every entry: `|x i| < +∞`
    exact real_of_abs_lt (x i) (Host.reduce_andi_all _ _ _ _ _ hx i)
  · intro i
    exact real_of_abs_lt (y i) (Host.reduce_andi_all _ _ _ _ _ hy i)

end Cert.Dmi

end
-- ==== Proof.lean ====
/-
  The claim: both frames of the kernel program, the frame of the reference, and the equality of their results over the
  extended reals under the precondition that every input entry is finite.

  The kernel program accumulates, per image, a = Σ x·y, s = Σ x and t = Σ y over the pixels and returns the mean over
  the images of −log (|N·a − s·t| + ε). The reference forms the 2×2 matrix of inner products of (x, 1 − x) with
  (y, 1 − y), takes its determinant by elimination with partial pivoting and applies the same closing map. For real
  inputs the determinant is N·a − s·t, so the two results are the same number.
-/
import proofs.«128826_j17600775979806_1_alg».proof.Defs
import proofs.«128826_j17600775979806_1_alg».proof.Proof.Gen.Kernel
import proofs.«128826_j17600775979806_1_alg».proof.Proof.Gen.Kernel.Skeleton
import proofs.«128826_j17600775979806_1_alg».proof.Proof.Gen.Kernel.Launch
import proofs.«128826_j17600775979806_1_alg».proof.Proof.Gen.Kernel.Points
import proofs.«128826_j17600775979806_1_alg».proof.Proof.Gen.Kernel.Frame
import proofs.«128826_j17600775979806_1_alg».proof.Proof.Gen.KernelIdeal
import proofs.«128826_j17600775979806_1_alg».proof.Proof.Gen.KernelIdeal.Skeleton
import proofs.«128826_j17600775979806_1_alg».proof.Proof.Gen.KernelIdeal.Launch
import proofs.«128826_j17600775979806_1_alg».proof.Proof.Gen.KernelIdeal.Points
import proofs.«128826_j17600775979806_1_alg».proof.Proof.Gen.KernelIdeal.Frame
import proofs.«128826_j17600775979806_1_alg».proof.Proof.Gen.ReferenceIdeal
import proofs.«128826_j17600775979806_1_alg».proof.Proof.Gen.Pre_finite_inputs
import proofs.«128826_j17600775979806_1_alg».proof.Proof.KernelValue
import proofs.«128826_j17600775979806_1_alg».proof.Proof.RefRun
import proofs.«128826_j17600775979806_1_alg».proof.Proof.RefValue
import proofs.«128826_j17600775979806_1_alg».proof.Proof.Algebra
import proofs.«128826_j17600775979806_1_alg».proof.Proof.Finite
import Idealize.ShloMosaic.Adequacy
import Idealize.ShloMosaic.Init

noncomputable section

namespace Cert.Proof

open Idealize.ShloMosaic Idealize.SL.Sem

/-- The word-level kernel program terminates without a fault and leaves its arguments as they were. -/
theorem frame_kernel : Cert.frame_Kernel := fun m ρ _ => Cert.Kernel.Gen.frame m ρ

/-- So does the kernel program read over the extended reals. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Hand.run (F := Ideal) m ρ)

/-- Both programs end at the closing map of per-image determinants — the closed form on one side, the pivoted
    determinant of the matrix of inner products on the other — and for finite inputs these are equal. -/
theorem algebraic : Cert.algebraic_KernelIdeal_ReferenceIdeal := by
  intro m ρ m' ρ' hpre hagree
  refine ⟨fun c => Cert.Dmi.tail (fun i => Cert.Dmi.kdet (Cert.KernelIdeal.Hand.argX m c) (Cert.KernelIdeal.Hand.argY m c) (i 0)),
    Cert.KernelIdeal.Hand.run m ρ, ?_⟩
  refine (θ_run Cert.ReferenceIdeal.defs _ _).mono (fun _ h c => ⟨(h c).1.trans ?_, (h c).2⟩)
    (Cert.ReferenceIdeal.Hand.run (F := Ideal) m' ρ')
  rw [Cert.ReferenceIdeal.Hand.outT_eq, (hagree c).1, (hagree c).2]
  obtain ⟨hx, hy⟩ := Cert.Dmi.real_of_pre _ _ (hpre c)
  exact congrArg Cert.Dmi.tail (funext fun i => (Cert.Dmi.det_eq _ _ hx hy (i 0)).symm)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
